-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S100000x16 : Shape := ⟨2, ![100000, 16]⟩
abbrev S1 : Shape := ⟨1, ![1]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S1024x16 .f32) (main_arg1 : FVec F S100000x16 .f32) (main_arg2 : FVec F S1 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S1024x16 : Shape := ⟨2, ![1024, 16]⟩
abbrev S100000x16 : Shape := ⟨2, ![100000, 16]⟩
abbrev S1 : Shape := ⟨1, ![1]⟩
abbrev S1x1 : Shape := ⟨2, ![1, 1]⟩
abbrev S1x1024 : Shape := ⟨2, ![1, 1024]⟩
abbrev S4000x16 : Shape := ⟨2, ![4000, 16]⟩
abbrev S32x1024 : Shape := ⟨2, ![32, 1024]⟩
abbrev S1024x32 : Shape := ⟨2, ![1024, 32]⟩
abbrev S1000x16 : Shape := ⟨2, ![1000, 16]⟩
abbrev S1000x32 : Shape := ⟨2, ![1000, 32]⟩
abbrev S1000x1024 : Shape := ⟨2, ![1000, 1024]⟩
abbrev S1024 : Shape := ⟨1, ![1024]⟩
abbrev S1x16 : Shape := ⟨2, ![1, 16]⟩

abbrev nBuf : Space → Nat
  | .hbm => 6
  | .vmem => 6
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S1, .f32⟩
  | .hbm, ⟨3, _⟩ => ⟨S1x1, .f32⟩
  | .hbm, ⟨4, _⟩ => ⟨S1x1024, .f32⟩
  | .hbm, ⟨5, _⟩ => ⟨S1024, .f32⟩
  | .local _ .vmem, ⟨0, _⟩ => ⟨S1024x16, .f32⟩
  | .local _ .vmem, ⟨1, _⟩ => ⟨S4000x16, .f32⟩
  | .local _ .vmem, ⟨2, _⟩ => ⟨S4000x16, .f32⟩
  | .local _ .vmem, ⟨3, _⟩ => ⟨S1x1, .f32⟩
  | .local _ .vmem, ⟨4, _⟩ => ⟨S1x1024, .f32⟩
  | .local _ .vmem, ⟨5, _⟩ => ⟨S32x1024, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c0_i32_14 : BitVec 32 := 0#32
  let v31 : BitVec 1 := Scalar.cmpi .eq arg0 c0_i32_14
  let v32 : BitVec 32 := Scalar.extui v31
  let c0_i32_15 : BitVec 32 := 0#32
  let v33 : BitVec 1 := Scalar.cmpi .ne v32 c0_i32_15
  v33

def k0_cond3 (i : grid0.Coords) : BitVec 1 :=
  let arg0 : BitVec 32 := BitVec.ofNat 32 (i 0).val
  let c0_i32_16 : BitVec 32 := 0#32
  let v34 : BitVec 1 := Scalar.cmpi .sgt arg0 c0_i32_16
  let v35 : BitVec 32 := Scalar.extui v34
  let c0_i32_17 : BitVec 32 := 0#32
  let v36 : BitVec 1 := Scalar.cmpi .ne v35 c0_i32_17
  v36

def k0_cond4 (i : grid0.Coords) : BitVec 1 :=
  let arg0 : BitVec 32 := BitVec.ofNat 32 (i 0).val
  let c24_i32 : BitVec 32 := 24#32
  let v37 : BitVec 1 := Scalar.cmpi .eq arg0 c24_i32
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S1_S1x1 : S1.ShapeCasts S1x1
  inb_S1024x16_S1024x16_0_0 : ∀ a, (![0, 0] : Fin 2 → Nat) a + S1024x16.size a ≤ S1024x16.size a
  h_S1024x16 : 0 < S1024x16.numel
  concatenates_S1024x16_S1024x16_S1024x32_d1 : Shape.Concatenates [S1024x16, S1024x16] S1024x32 1
  transposes_S1024x32_p1_0_S32x1024 : S1024x32.Transposes [1, 0] S32x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S4000x16_S1000x16_0_0 : ∀ a, (![0, 0] : Fin 2 → Nat) a + S1000x16.size a ≤ S4000x16.size a
  h_S1000x16 : 0 < S1000x16.numel
  concatenates_S1000x16_S1000x16_S1000x32_d1 : Shape.Concatenates [S1000x16, S1000x16] S1000x32 1
  reduces_S1000x1024_S1024 : S1000x1024.Reduces [0] S1024
  shapeCasts_S1024_S1x1024 : S1024.ShapeCasts S1x1024
  inb_S4000x16_S1000x16_1000_0 : ∀ a, (![1000, 0] : Fin 2 → Nat) a + S1000x16.size a ≤ S4000x16.size a
  inb_S4000x16_S1000x16_2000_0 : ∀ a, (![2000, 0] : Fin 2 → Nat) a + S1000x16.size a ≤ S4000x16.size a
  inb_S4000x16_S1000x16_3000_0 : ∀ a, (![3000, 0] : Fin 2 → Nat) a + S1000x16.size a ≤ S4000x16.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x1024 : S1x1.Broadcasts S1x1024
  shapeCasts_S1x1024_S1024 : S1x1024.ShapeCasts S1024
  dot_S1000x32_S32x1024_S1000x1024_1_0_0_1_n_n_wf : DotDims.WF S1000x32 S32x1024 S1000x1024 [1] [0] [0] [1] [] []
  dot_S1x16_S1024x16_S1x1024_1_1_0_0_n_n_wf : DotDims.WF S1x16 S1024x16 S1x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S1024x16.size a
  hwx0_0 : ∀ i : grid0.Coords, EltTy.bits .f32 = 32 ∨ (Rect.block (s := S1024x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x16.size a ≤ S100000x16.size a
  hwx0_1 : ∀ i : grid0.Coords, EltTy.bits .f32 = 32 ∨ (Rect.block (s := S100000x16) S4000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)

variable [Facts₀]

def dot_S1000x32_S32x1024_S1000x1024_1_0_0_1_n_n : DotDims S1000x32 S32x1024 S1000x1024 where
  lhsContracting := [1]
  rhsContracting := [0]
  lhsNonContracting := [0]
  rhsNonContracting := [1]
  lhsBatch := []
  rhsBatch := []
  wf := dot_S1000x32_S32x1024_S1000x1024_1_0_0_1_n_n_wf
def dot_S1x16_S1024x16_S1x1024_1_1_0_0_n_n : DotDims S1x16 S1024x16 S1x1024 where
  lhsContracting := [1]
  rhsContracting := [1]
  lhsNonContracting := [0]
  rhsNonContracting := [0]
  lhsBatch := []
  rhsBatch := []
  wf := dot_S1x16_S1024x16_S1x1024_1_1_0_0_n_n_wf

abbrev win0_0 : Pipeline.Window sig grid0 :=
  Pipeline.Window.ofSpec (Memref.whole main_arg0) S1024x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) && !(k0_cond3 i == 1#1) && !(k0_cond4 i == 1#1) | ⟨_ + 4, h⟩ => absurd h (Nat.not_lt.2 (Nat.le_add_left _ _))

class Facts : Prop extends Facts₀ where

variable [Facts]
-- ==== ReferenceIdeal.lean ====
abbrev S1024x16 : Shape := ⟨2, ![1024, 16]⟩
abbrev S100000x16 : Shape := ⟨2, ![100000, 16]⟩
abbrev S1 : Shape := ⟨1, ![1]⟩
abbrev S_ : Shape := ⟨0, ![]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S1x100000 : Shape := ⟨2, ![1, 100000]⟩
abbrev S16x100000 : Shape := ⟨2, ![16, 100000]⟩
abbrev S1024x100000 : Shape := ⟨2, ![1024, 100000]⟩

abbrev nBuf : Space → Nat
  | .hbm => 57
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S1, .f32⟩
  | .hbm, ⟨3, _⟩ => ⟨S1024x16, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S100000x16, .f32⟩
  | .hbm, ⟨8, _⟩ => ⟨S_, .f32⟩
  | .hbm, ⟨9, _⟩ => ⟨S100000, .f32⟩
  | .hbm, ⟨10, _⟩ => ⟨S100000x1, .f32⟩
  | .hbm, ⟨11, _⟩ => ⟨S1x100000, .f32⟩
  | .hbm, ⟨12, _⟩ => ⟨S16x100000, .f32⟩
  | .hbm, ⟨13, _⟩ => ⟨S1024x100000, .f32⟩
  | .hbm, ⟨14, _⟩ => ⟨S_, .f32⟩
  | .hbm, ⟨15, _⟩ => ⟨S1024x100000, .f32⟩
  | .hbm, ⟨16, _⟩ => ⟨S1024x100000, .f32⟩
  | .hbm, ⟨17, _⟩ => ⟨S1024x100000, .f32⟩
  | .hbm, ⟨18, _⟩ => ⟨S1024x100000, .f32⟩
  | .hbm, ⟨19, _⟩ => ⟨S1024x100000, .f32⟩
  | .hbm, ⟨20, _⟩ => ⟨S1024x100000, .f32⟩
  | .hbm, ⟨21, _⟩ => ⟨S_, .f32⟩
  | .hbm, ⟨22, _⟩ => ⟨S_, .f32⟩
  | .hbm, ⟨23, _⟩ => ⟨S1024x100000, .f32⟩
  | .hbm, ⟨24, _⟩ => ⟨S1024x100000, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S1, .f32⟩
  | .hbm, ⟨31, _⟩ => ⟨S1, .f32⟩
  | .hbm, ⟨32, _⟩ => ⟨S1, .i1⟩
  | .hbm, ⟨33, _⟩ => ⟨S1, .f32⟩
  | .hbm, ⟨34, _⟩ => ⟨S1, .f32⟩
  | .hbm, ⟨35, _⟩ => ⟨S1, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_v17 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩

abbrev nD : Nat := 1
abbrev τ : Topo := Topo.v7x

variable {F : FTy → Type} [FloatOps F]

class Facts₀ : Prop where
  reducesTo_S1024x16_S1024_d1 : S1024x16.ReducesTo [1] S1024
  h_S_ : 0 < S_.numel
  bcast_S1024_S1024x1_0 : S1024.BroadcastsInDim S1024x1 (![0] : Fin 1 → Fin S1024x1.rank)
  reducesTo_S100000x16_S100000_d1 : S100000x16.ReducesTo [1] S100000
  bcast_S100000_S100000x1_0 : S100000.BroadcastsInDim S100000x1 (![0] : Fin 1 → Fin S100000x1.rank)
  transposes_S100000x1_S1x100000_1_0 : S100000x1.Transposes [1, 0] S1x100000
  transposes_S100000x16_S16x100000_1_0 : S100000x16.Transposes [1, 0] S16x100000
  bcast_S_S1024x100000 : S_.BroadcastsInDim S1024x100000 (![] : Fin 0 → Fin S1024x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  bcast_S_S1 : S_.BroadcastsInDim S1 (![] : Fin 0 → Fin S1.rank)
  bcast_S1_S1024_0 : S1.BroadcastsInDim S1024 (![0] : Fin 1 → Fin S1024.rank)
  bcast_S_S1024 : S_.BroadcastsInDim S1024 (![] : Fin 0 → Fin S1024.rank)
  dot_S1024x16_S16x100000_S1024x100000_1_0_0_1_n_n_wf : DotDims.WF S1024x16 S16x100000 S1024x100000 [1] [0] [0] [1] [] []

variable [Facts₀]

def dot_S1024x16_S16x100000_S1024x100000_1_0_0_1_n_n : DotDims S1024x16 S16x100000 S1024x100000 where
  lhsContracting := [1]
  rhsContracting := [0]
  lhsNonContracting := [0]
  rhsNonContracting := [1]
  lhsBatch := []
  rhsBatch := []
  wf := dot_S1024x16_S16x100000_S1024x100000_1_0_0_1_n_n_wf

class Facts : Prop extends Facts₀ where

variable [Facts]
-- ==== Proof.KernelBody.Shared.lean ====
/-
  What the three runs of the kernel body share: the body's four branch conditions decided over the 25 grid
  points, the fact that no window is ever idle, the staging memrefs the pipeline passes at a point, the scratch
  operand (the augmented query tile, carried from the first point on) and the region invariant opened at it.

  The body's control: the query tile is built under `j = 0`; the running minimum is initialised under `j = 0`,
  combined under `j > 0`, and finished (|x|², clip, translated sigmoid) under `j = 24`. So the 25 points fall
  into three cases: the first point, the points 1 to 23, the last point.
-/
import proofs.«175195_g1580547974396_cont_7to1_126_26_alg».proof.Proof.Gen.Kernel.Frame
import proofs.«175195_g1580547974396_cont_7to1_126_26_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions, in closed form -/

/-- The condition under which the query tile is built (`j = 0`), from the grid coordinate. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 25 = 0 :=
  (by decide +kernel : ∀ t : Fin grid0.N, cond0 (grid0.coords t) ↔ t.val % 25 = 0)

/-- The condition under which the running minimum is initialised (`j = 0`). -/
abbrev cond1 (i : grid0.Coords) : Prop := k0_cond2 i = 1#1
theorem hcond1 : ∀ t : Fin cfg0.N, cond1 (grid0.coords t) ↔ t.val % 25 = 0 :=
  (by decide +kernel : ∀ t : Fin grid0.N, cond1 (grid0.coords t) ↔ t.val % 25 = 0)

/-- The condition under which the running minimum is combined with the block's (`j > 0`). -/
abbrev cond2 (i : grid0.Coords) : Prop := k0_cond3 i = 1#1
theorem hcond2 : ∀ t : Fin cfg0.N, cond2 (grid0.coords t) ↔ 1 ≤ t.val :=
  (by decide +kernel : ∀ t : Fin grid0.N, cond2 (grid0.coords t) ↔ 1 ≤ t.val)

/-- The condition under which the result is finished (`j = 24`). -/
abbrev cond3 (i : grid0.Coords) : Prop := k0_cond4 i = 1#1
theorem hcond3 : ∀ t : Fin cfg0.N, cond3 (grid0.coords t) ↔ t.val % 25 = 24 :=
  (by decide +kernel : ∀ t : Fin grid0.N, cond3 (grid0.coords t) ↔ t.val % 25 = 24)

/-! ## No window is idle at any point -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output is stored at every point (under `j = 0` or under `j > 0`). -/
theorem live3 : ∀ t : Fin cfg0.N, cfg0.idle 3 (grid0.coords t) = false := by decide +kernel

/-! ## The memrefs the body is called with -/

abbrev ms0 (t : Fin cfg0.N) : Memref sig .tc .vmem S1024x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4000x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
/-- The scratch operand: the augmented query tile's buffer. -/
abbrev scM : Memref sig .tc .vmem S32x1024 .f32 := Memref.whole cc0_scratch0

/-- The output's staging buffer as a view: its contents are stated through it. -/
abbrev VO : View sig .tc .vmem S1x1024 .f32 := (Memref.whole cc0_stg3_0 : Memref sig .tc .vmem S1x1024 .f32).view
/-- The scratch as a view. -/
abbrev VS : View sig .tc .vmem S32x1024 .f32 := scM.view

/-- The region invariant of the class, opened: the scratch at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.KernelBody.CaseA.lean ====
/-
  The kernel body at the FIRST grid point: it builds the augmented query tile into the scratch, reads it back,
  takes the block's minimum of the augmented contraction and stores it into the output buffer. Stated on any whole
  memrefs: the inputs at their contents, the output buffer and the scratch at anything; handed back, the output
  buffer and the scratch each hold the pieces the body stored (found by running the body).
-/
import proofs.«175195_g1580547974396_cont_7to1_126_26_alg».proof.Proof.KernelBody.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at the first point (query tile built, minimum initialised, no combining, no finishing). -/
noncomputable def runA (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : cond0 i) (hc1 : cond1 i) (hc2 : ¬cond2 i) (hc3 : ¬cond3 i)
    (x0 : Vec F S1024x16 .f32) (x1 : Vec F S4000x16 .f32) (x2 : Vec F S1x1 .f32) :
    Σ' (L3 : List (View.Piece (Elt F) S1x1024 .f32)), { LS : List (View.Piece (Elt F) S32x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc0__distnet_kernel i arg1 harg1 arg2 harg2 arg3 harg3 arg4 harg4 arg5 harg5) K } := by
  refine ⟨?_, ?_, fun E K => ?run⟩
  case run =>
    simp only [cc0__distnet_kernel_eq_skeleton]; unfold cc0__distnet_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Body

end
-- ==== Proof.KernelBody.CaseB.lean ====
/-
  The kernel body at a MIDDLE grid point (1 to 23): it reads the query tile from the scratch (left there by the
  first point), takes the block's minimum and combines it with the running minimum the output buffer holds from
  the point before. Stated on any whole memrefs: the inputs, the output buffer and the scratch at their contents;
  handed back, the scratch as it was and the output buffer holding the piece the body stored (found by running it).
-/
import proofs.«175195_g1580547974396_cont_7to1_126_26_alg».proof.Proof.KernelBody.CaseA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a middle point (no tile built, no initialising; combining; no finishing). -/
noncomputable def runB (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : ¬cond3 i)
    (x0 : Vec F S1024x16 .f32) (x1 : Vec F S4000x16 .f32) (x2 : Vec F S1x1 .f32) (xo : Vec F S1x1024 .f32) (xs : Vec F S32x1024 .f32) :
    { L3 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs) -∗ K ⟨⟩))
          ⊢ wp frame (wpE (defs₀ (F := F)) Variants.none c none) E (cc0__distnet_kernel i arg1 harg1 arg2 harg2 arg3 harg3 arg4 harg4 arg5 harg5) K } := by
  refine ⟨?_, fun E K => ?run⟩
  case run =>
    simp only [cc0__distnet_kernel_eq_skeleton]; unfold cc0__distnet_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS0

end Cert.Kernel.Body

end
-- ==== Proof.KernelBody.CaseC.lean ====
/-
  The kernel body at the LAST grid point: it reads the query tile from the scratch (left there by the first point),
  takes the block's minimum, combines it with the running minimum the output buffer holds from the point before,
  stores that, reads it back, and stores the finished result: |x|² added, the clip at zero, the translated sigmoid.
  Stated on any whole memrefs: the inputs, the output buffer and the scratch at their contents; handed back, the
  scratch as it was and the output buffer holding the pieces the body stored (found by running the body).
-/
import proofs.«175195_g1580547974396_cont_7to1_126_26_alg».proof.Proof.KernelBody.CaseB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at the last point (no tile built, no initialising; combining and finishing). -/
noncomputable def runC (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : cond3 i)
    (x0 : Vec F S1024x16 .f32) (x1 : Vec F S4000x16 .f32) (x2 : Vec F S1x1 .f32) (xo : Vec F S1x1024 .f32) (xs : Vec F S32x1024 .f32) :
    { L3 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs) -∗ K ⟨⟩))
          ⊢ wp frame (wpE (defs₀ (F := F)) Variants.none c none) E (cc0__distnet_kernel i arg1 harg1 arg2 harg2 arg3 harg3 arg4 harg4 arg5 harg5) K } := by
  refine ⟨?_, fun E K => ?run⟩
  case run =>
    simp only [cc0__distnet_kernel_eq_skeleton]; unfold cc0__distnet_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS0

end Cert.Kernel.Body

end
-- ==== Proof.KernelBody.Frame.lean ====
/-
  The frame of the program, with the output's contents NAMED point by point.

  What the output's staging buffer and the scratch hold after the body at each of the 25 grid points is defined by
  recursion on the point (`outsAt`): the first point's stores; at a middle point the body's store over what the
  point before left in the output buffer, the scratch (the augmented query tile) as the first point left it; at
  the last point the finished result. The output's block index never changes and it is written back only after the
  last point, so between points the buffer keeps what the body left. With that proof data the body obligation
  holds at every point (the three runs), the region's launch theorem gives the run of @main, and the frame claim
  follows: the argument arrays end as launched.
-/
import proofs.«175195_g1580547974396_cont_7to1_126_26_alg».proof.Proof.KernelBody.CaseC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point, from its position -/

theorem c0_of (t : Fin cfg0.N) (h : t.val = 0) : cond0 (grid0.coords t) := (hcond0 t).mpr (by rw [h])
theorem c1_of (t : Fin cfg0.N) (h : t.val = 0) : cond1 (grid0.coords t) := (hcond1 t).mpr (by rw [h])
theorem nc2_of (t : Fin cfg0.N) (h : t.val = 0) : ¬cond2 (grid0.coords t) := fun hc => by have := (hcond2 t).mp hc; omega
theorem nc0_of (t : Fin cfg0.N) (h : t.val ≠ 0) : ¬cond0 (grid0.coords t) := fun hc => by
  have := (hcond0 t).mp hc; have hN : t.val < 25 := lt_of_lt_of_eq t.isLt (show cfg0.N = 25 from N_0); omega
theorem nc1_of (t : Fin cfg0.N) (h : t.val ≠ 0) : ¬cond1 (grid0.coords t) := fun hc => by
  have := (hcond1 t).mp hc; have hN : t.val < 25 := lt_of_lt_of_eq t.isLt (show cfg0.N = 25 from N_0); omega
theorem c2_of (t : Fin cfg0.N) (h : t.val ≠ 0) : cond2 (grid0.coords t) := (hcond2 t).mpr (by omega)
theorem c3_of (t : Fin cfg0.N) (h : t.val % 25 = 24) : cond3 (grid0.coords t) := (hcond3 t).mpr h
theorem nc3_of (t : Fin cfg0.N) (h : ¬t.val % 25 = 24) : ¬cond3 (grid0.coords t) := fun hc => h ((hcond3 t).mp hc)

/-! ## What each case leaves -/

/-- The first point's store covers the output buffer. -/
theorem coverA (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : cond0 i) (hc1 : cond1 i) (hc2 : ¬cond2 i) (hc3 : ¬cond3 i)
    (x0 : Vec F S1024x16 .f32) (x1 : Vec F S4000x16 .f32) (x2 : Vec F S1x1 .f32) (y : S1x1024.Idx) :
    ∃ pc ∈ (runA c i arg1 harg1 arg2 harg2 arg3 harg3 arg4 harg4 arg5 harg5 hc0 hc1 hc2 hc3 x0 x1 x2).1, y ∈ pc.1.set :=
  View.cover_of_tiledL (runA c i arg1 harg1 arg2 harg2 arg3 harg3 arg4 harg4 arg5 harg5 hc0 hc1 hc2 hc3 x0 x1 x2).1 S1x1024.size (by sl_kernel_rfl) y
/-- What the first point leaves in the output buffer: its pieces read back. -/
def outA (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : cond0 i) (hc1 : cond1 i) (hc2 : ¬cond2 i) (hc3 : ¬cond3 i)
    (x0 : Vec F S1024x16 .f32) (x1 : Vec F S4000x16 .f32) (x2 : Vec F S1x1 .f32) : Vec F S1x1024 .f32 :=
  VO.read (Elt F) (VO.writes (Elt F) VO.junk (runA c i arg1 harg1 arg2 harg2 arg3 harg3 arg4 harg4 arg5 harg5 hc0 hc1 hc2 hc3 x0 x1 x2).1)
/-- The first point's store of the query tile covers the scratch. -/
theorem coverAS (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : cond0 i) (hc1 : cond1 i) (hc2 : ¬cond2 i) (hc3 : ¬cond3 i)
    (x0 : Vec F S1024x16 .f32) (x1 : Vec F S4000x16 .f32) (x2 : Vec F S1x1 .f32) (y : S32x1024.Idx) :
    ∃ pc ∈ (runA c i arg1 harg1 arg2 harg2 arg3 harg3 arg4 harg4 arg5 harg5 hc0 hc1 hc2 hc3 x0 x1 x2).2.1, y ∈ pc.1.set :=
  View.cover_of_tiledL (runA c i arg1 harg1 arg2 harg2 arg3 harg3 arg4 harg4 arg5 harg5 hc0 hc1 hc2 hc3 x0 x1 x2).2.1 S32x1024.size (by sl_kernel_rfl) y
/-- What the first point leaves in the scratch: the query tile's pieces read back. -/
def scrA (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : cond0 i) (hc1 : cond1 i) (hc2 : ¬cond2 i) (hc3 : ¬cond3 i)
    (x0 : Vec F S1024x16 .f32) (x1 : Vec F S4000x16 .f32) (x2 : Vec F S1x1 .f32) : Vec F S32x1024 .f32 :=
  VS.read (Elt F) (VS.writes (Elt F) VS.junk (runA c i arg1 harg1 arg2 harg2 arg3 harg3 arg4 harg4 arg5 harg5 hc0 hc1 hc2 hc3 x0 x1 x2).2.1)

/-- A middle point's store covers the output buffer. -/
theorem coverB (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : ¬cond3 i)
    (x0 : Vec F S1024x16 .f32) (x1 : Vec F S4000x16 .f32) (x2 : Vec F S1x1 .f32) (xo : Vec F S1x1024 .f32) (xs : Vec F S32x1024 .f32) (y : S1x1024.Idx) :
    ∃ pc ∈ (runB c i arg1 harg1 arg2 harg2 arg3 harg3 arg4 harg4 arg5 harg5 hc0 hc1 hc2 hc3 x0 x1 x2 xo xs).1, y ∈ pc.1.set :=
  View.cover_of_tiledL (runB c i arg1 harg1 arg2 harg2 arg3 harg3 arg4 harg4 arg5 harg5 hc0 hc1 hc2 hc3 x0 x1 x2 xo xs).1 S1x1024.size (by sl_kernel_rfl) y
/-- What a middle point leaves in the output buffer. -/
def outB (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : ¬cond3 i)
    (x0 : Vec F S1024x16 .f32) (x1 : Vec F S4000x16 .f32) (x2 : Vec F S1x1 .f32) (xo : Vec F S1x1024 .f32) (xs : Vec F S32x1024 .f32) : Vec F S1x1024 .f32 :=
  VO.read (Elt F) (VO.writes (Elt F) VO.junk (runB c i arg1 harg1 arg2 harg2 arg3 harg3 arg4 harg4 arg5 harg5 hc0 hc1 hc2 hc3 x0 x1 x2 xo xs).1)

/-- The last point's stores cover the output buffer. -/
theorem coverC (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : cond3 i)
    (x0 : Vec F S1024x16 .f32) (x1 : Vec F S4000x16 .f32) (x2 : Vec F S1x1 .f32) (xo : Vec F S1x1024 .f32) (xs : Vec F S32x1024 .f32) (y : S1x1024.Idx) :
    ∃ pc ∈ (runC c i arg1 harg1 arg2 harg2 arg3 harg3 arg4 harg4 arg5 harg5 hc0 hc1 hc2 hc3 x0 x1 x2 xo xs).1, y ∈ pc.1.set :=
  View.cover_of_tiledL (runC c i arg1 harg1 arg2 harg2 arg3 harg3 arg4 harg4 arg5 harg5 hc0 hc1 hc2 hc3 x0 x1 x2 xo xs).1 S1x1024.size (by sl_kernel_rfl) y
/-- What the last point leaves in the output buffer. -/
def outC (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : cond3 i)
    (x0 : Vec F S1024x16 .f32) (x1 : Vec F S4000x16 .f32) (x2 : Vec F S1x1 .f32) (xo : Vec F S1x1024 .f32) (xs : Vec F S32x1024 .f32) : Vec F S1x1024 .f32 :=
  VO.read (Elt F) (VO.writes (Elt F) VO.junk (runC c i arg1 harg1 arg2 harg2 arg3 harg3 arg4 harg4 arg5 harg5 hc0 hc1 hc2 hc3 x0 x1 x2 xo xs).1)

/-! ## What the output buffer and the scratch hold after each point -/

/-- After the body at position `n`: the output's staging buffer, then the scratch. -/
def outsAt (c : Dev nD) : (n : ℕ) → n < cfg0.N → Vec F S1x1024 .f32 × Vec F S32x1024 .f32
  | 0, hn =>
    (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (c0_of ⟨0, hn⟩ rfl) (c1_of ⟨0, hn⟩ rfl) (nc2_of ⟨0, hn⟩ rfl) (nc3_of ⟨0, hn⟩ (by show ¬((0 : ℕ) % 25 = 24); decide)) (iblk m c 0 ⟨0, hn⟩) (iblk m c 1 ⟨0, hn⟩) (iblk m c 2 ⟨0, hn⟩),
     scrA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (c0_of ⟨0, hn⟩ rfl) (c1_of ⟨0, hn⟩ rfl) (nc2_of ⟨0, hn⟩ rfl) (nc3_of ⟨0, hn⟩ (by show ¬((0 : ℕ) % 25 = 24); decide)) (iblk m c 0 ⟨0, hn⟩) (iblk m c 1 ⟨0, hn⟩) (iblk m c 2 ⟨0, hn⟩))
  | n + 1, hn =>
    if h3 : (n + 1) % 25 = 24 then
      (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (nc0_of ⟨n + 1, hn⟩ (Nat.succ_ne_zero n)) (nc1_of ⟨n + 1, hn⟩ (Nat.succ_ne_zero n)) (c2_of ⟨n + 1, hn⟩ (Nat.succ_ne_zero n)) (c3_of ⟨n + 1, hn⟩ h3) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2,
       (outsAt c n (Nat.lt_of_succ_lt hn)).2)
    else
      (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (nc0_of ⟨n + 1, hn⟩ (Nat.succ_ne_zero n)) (nc1_of ⟨n + 1, hn⟩ (Nat.succ_ne_zero n)) (c2_of ⟨n + 1, hn⟩ (Nat.succ_ne_zero n)) (nc3_of ⟨n + 1, hn⟩ h3) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2,
       (outsAt c n (Nat.lt_of_succ_lt hn)).2)

/-- `outsAt` at the first point. -/
theorem outsAt_A (c : Dev nD) (t : Fin cfg0.N) (h : t.val = 0) :
    outsAt m c t.val t.isLt =
      (outA c (grid0.coords t) (ms0 t) (hs0 t) (ms1 t) (hs1 t) (ms2 t) (hs2 t) (ms3 t) (hs3 t) scM (Memref.isWhole_whole _) (c0_of t h) (c1_of t h) (nc2_of t h) (nc3_of t (by omega)) (iblk m c 0 t) (iblk m c 1 t) (iblk m c 2 t),
       scrA c (grid0.coords t) (ms0 t) (hs0 t) (ms1 t) (hs1 t) (ms2 t) (hs2 t) (ms3 t) (hs3 t) scM (Memref.isWhole_whole _) (c0_of t h) (c1_of t h) (nc2_of t h) (nc3_of t (by omega)) (iblk m c 0 t) (iblk m c 1 t) (iblk m c 2 t)) := by
  obtain ⟨n, hn⟩ := t
  cases n with
  | zero => exact rfl
  | succ n => exact absurd h (Nat.succ_ne_zero n)

/-- `outsAt` at a middle point: the body's store over what the point before left; the scratch kept. -/
theorem outsAt_B (c : Dev nD) (t : Fin cfg0.N) (h : t.val ≠ 0) (h3 : ¬t.val % 25 = 24) :
    outsAt m c t.val t.isLt =
      (outB c (grid0.coords t) (ms0 t) (hs0 t) (ms1 t) (hs1 t) (ms2 t) (hs2 t) (ms3 t) (hs3 t) scM (Memref.isWhole_whole _) (nc0_of t h) (nc1_of t h) (c2_of t h) (nc3_of t h3) (iblk m c 0 t) (iblk m c 1 t) (iblk m c 2 t)
          (outsAt m c (t.val - 1) (Nat.lt_of_le_of_lt (Nat.sub_le _ _) t.isLt)).1 (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd rfl h
  | succ n => exact (dif_neg h3).trans rfl

/-- `outsAt` at the last point: the finished result over what the point before left; the scratch kept. -/
theorem outsAt_C (c : Dev nD) (t : Fin cfg0.N) (h : t.val ≠ 0) (h3 : t.val % 25 = 24) :
    outsAt m c t.val t.isLt =
      (outC c (grid0.coords t) (ms0 t) (hs0 t) (ms1 t) (hs1 t) (ms2 t) (hs2 t) (ms3 t) (hs3 t) scM (Memref.isWhole_whole _) (nc0_of t h) (nc1_of t h) (c2_of t h) (c3_of t h3) (iblk m c 0 t) (iblk m c 1 t) (iblk m c 2 t)
          (outsAt m c (t.val - 1) (Nat.lt_of_le_of_lt (Nat.sub_le _ _) t.isLt)).1 (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd rfl h
  | succ n => exact (dif_pos h3).trans rfl

/-- The region invariant before position `n`: before the first point the scratch at anything; afterwards the scratch
    at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The arrays as the region finds them; after the body each input's buffer at its block, the output's at `outsAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The output is live at every coordinate (it is stored under `j = 0` or under `j > 0`). -/
theorem live3_all : ∀ i : grid0.Coords, cfg0.idle 3 i = false := by decide +kernel

/-- After the first point the output's staging buffer holds what the body left at the point before: its block index
    does not move and it is written back only after the last point. -/
theorem before_3 (c : Dev nD) (t : Fin cfg0.N) (h : t.val ≠ 0) (d) :
    (dats m 0 c).before 3 t d = (outsAt m c (t.val - 1) (Nat.lt_of_le_of_lt (Nat.sub_le _ _) t.isLt)).1 := by
  have hN : t.val < 25 := lt_of_lt_of_eq t.isLt (show cfg0.N = 25 from N_0)
  rw [Dat.before_out_kept _ 3 rfl t h (Bool.eq_false_iff.mpr fun hf => by have := (flush0_3 _).mp hf; dsimp only at this; omega)
    live3_all (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the position says which case applies; after the
    first point the output buffer holds what the point before left and the scratch the query tile; the run applies,
    and the buffers it hands back hold exactly the pieces read back (the stores cover them). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt (show cfg0.N = 25 from N_0)
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  by_cases hz : t.val = 0
  · rw [outsAt_A m c t hz]
    unfold outA scrA; (try dsimp only)
    rw [PhiS_castSucc m c t, PhiS_zero m c _ _ hz, PhiA_eq]
    iintro ⟨⟨HS0, Hg⟩, Ho, ⟨%d0, H0⟩, ⟨%d1, H1⟩, ⟨%d2, H2⟩, ⟨%d3, H3⟩⟩
    iapply ((runA c (grid0.coords t) _ _ _ _ _ _ _ _ _ _ (c0_of t hz) (c1_of t hz) (nc2_of t hz) (nc3_of t (by omega)) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg]
    · isplitl [HS0]
      · unfold owns; iexists _; isplitr
        swap; · iexact HS0
        ipureintro; exact View.read_writes_of_cover _ _ _ _ _ (coverAS c _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _ _ _ _)
  · simp only [before_3 m c t hz]
    rw [PhiS_castSucc m c t, PhiS_pos m c _ _ hz]
    by_cases h3 : t.val % 25 = 24
    · rw [outsAt_C m c t hz h3]
      unfold outC; (try dsimp only)
      iintro ⟨⟨HS0, Hg⟩, Ho, ⟨%d0, H0⟩, ⟨%d1, H1⟩, ⟨%d2, H2⟩, ⟨%d3, H3⟩⟩
      iapply ((runC c (grid0.coords t) _ _ _ _ _ _ _ _ _ _ (nc0_of t hz) (nc1_of t hz) (c2_of t hz) (c3_of t h3) (iblk m c 0 t) (iblk m c 1 t) (iblk m c 2 t) _ _).2 Set.univ _)
      isplitl [H0]; · iexact H0
      isplitl [H1]; · iexact H1
      isplitl [H2]; · iexact H2
      isplitl [H3]; · iexact H3
      isplitl [HS0]; · iexact HS0
      iintro ⟨H0, H1, H2, ⟨%e3, H3⟩, HS0⟩
      isplitl [HS0 Hg]
      · isplitl [HS0]; · iexact HS0
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _ _ _ _)
    · rw [outsAt_B m c t hz h3]
      unfold outB; (try dsimp only)
      iintro ⟨⟨HS0, Hg⟩, Ho, ⟨%d0, H0⟩, ⟨%d1, H1⟩, ⟨%d2, H2⟩, ⟨%d3, H3⟩⟩
      iapply ((runB c (grid0.coords t) _ _ _ _ _ _ _ _ _ _ (nc0_of t hz) (nc1_of t hz) (c2_of t hz) (nc3_of t h3) (iblk m c 0 t) (iblk m c 1 t) (iblk m c 2 t) _ _).2 Set.univ _)
      isplitl [H0]; · iexact H0
      isplitl [H1]; · iexact H1
      isplitl [H2]; · iexact H2
      isplitl [H3]; · iexact H3
      isplitl [HS0]; · iexact HS0
      iintro ⟨H0, H1, H2, ⟨%e3, H3⟩, HS0⟩
      isplitl [HS0 Hg]
      · isplitl [HS0]; · iexact HS0
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB c _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), PhiA_eq]
  iintro ⟨HS0, Hg⟩
  isplitl [HS0]
  · iexists _; iexact HS0
  iexact Hg

/-! ## The run and the frame -/

set_option backward.isDefEq.respectTransparency.types false in
/-- Every weakly fair execution of @main terminates, and in every final state each array of the pipeline is at what
    the proof data gives (the output's array at the last point's block) and every other unscoped buffer as the host
    line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs and its argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KernelIdealBody.Shared.lean ====
/-
  What the three runs of the kernel body share: the body's four branch conditions decided over the 25 grid
  points, the fact that no window is ever idle, the staging memrefs the pipeline passes at a point, the scratch
  operand (the augmented query tile, carried from the first point on) and the region invariant opened at it.

  The body's control: the query tile is built under `j = 0`; the running minimum is initialised under `j = 0`,
  combined under `j > 0`, and finished (|x|², clip, translated sigmoid) under `j = 24`. So the 25 points fall
  into three cases: the first point, the points 1 to 23, the last point.
-/
import proofs.«175195_g1580547974396_cont_7to1_126_26_alg».proof.Proof.Gen.KernelIdeal.Frame
import proofs.«175195_g1580547974396_cont_7to1_126_26_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions, in closed form -/

/-- The condition under which the query tile is built (`j = 0`), from the grid coordinate. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 25 = 0 :=
  (by decide +kernel : ∀ t : Fin grid0.N, cond0 (grid0.coords t) ↔ t.val % 25 = 0)

/-- The condition under which the running minimum is initialised (`j = 0`). -/
abbrev cond1 (i : grid0.Coords) : Prop := k0_cond2 i = 1#1
theorem hcond1 : ∀ t : Fin cfg0.N, cond1 (grid0.coords t) ↔ t.val % 25 = 0 :=
  (by decide +kernel : ∀ t : Fin grid0.N, cond1 (grid0.coords t) ↔ t.val % 25 = 0)

/-- The condition under which the running minimum is combined with the block's (`j > 0`). -/
abbrev cond2 (i : grid0.Coords) : Prop := k0_cond3 i = 1#1
theorem hcond2 : ∀ t : Fin cfg0.N, cond2 (grid0.coords t) ↔ 1 ≤ t.val :=
  (by decide +kernel : ∀ t : Fin grid0.N, cond2 (grid0.coords t) ↔ 1 ≤ t.val)

/-- The condition under which the result is finished (`j = 24`). -/
abbrev cond3 (i : grid0.Coords) : Prop := k0_cond4 i = 1#1
theorem hcond3 : ∀ t : Fin cfg0.N, cond3 (grid0.coords t) ↔ t.val % 25 = 24 :=
  (by decide +kernel : ∀ t : Fin grid0.N, cond3 (grid0.coords t) ↔ t.val % 25 = 24)

/-! ## No window is idle at any point -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output is stored at every point (under `j = 0` or under `j > 0`). -/
theorem live3 : ∀ t : Fin cfg0.N, cfg0.idle 3 (grid0.coords t) = false := by decide +kernel

/-! ## The memrefs the body is called with -/

abbrev ms0 (t : Fin cfg0.N) : Memref sig .tc .vmem S1024x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4000x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
/-- The scratch operand: the augmented query tile's buffer. -/
abbrev scM : Memref sig .tc .vmem S32x1024 .f32 := Memref.whole cc0_scratch0

/-- The output's staging buffer as a view: its contents are stated through it. -/
abbrev VO : View sig .tc .vmem S1x1024 .f32 := (Memref.whole cc0_stg3_0 : Memref sig .tc .vmem S1x1024 .f32).view
/-- The scratch as a view. -/
abbrev VS : View sig .tc .vmem S32x1024 .f32 := scM.view

/-- The region invariant of the class, opened: the scratch at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.KernelIdealBody.CaseA.lean ====
/-
  The kernel body at the FIRST grid point: it builds the augmented query tile into the scratch, reads it back,
  takes the block's minimum of the augmented contraction and stores it into the output buffer. Stated on any whole
  memrefs: the inputs at their contents, the output buffer and the scratch at anything; handed back, the output
  buffer and the scratch each hold the pieces the body stored (found by running the body).
-/
import proofs.«175195_g1580547974396_cont_7to1_126_26_alg».proof.Proof.KernelIdealBody.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at the first point (query tile built, minimum initialised, no combining, no finishing). -/
noncomputable def runA (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : cond0 i) (hc1 : cond1 i) (hc2 : ¬cond2 i) (hc3 : ¬cond3 i)
    (x0 : Vec F S1024x16 .f32) (x1 : Vec F S4000x16 .f32) (x2 : Vec F S1x1 .f32) :
    Σ' (L3 : List (View.Piece (Elt F) S1x1024 .f32)), { LS : List (View.Piece (Elt F) S32x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc0__distnet_kernel i arg1 harg1 arg2 harg2 arg3 harg3 arg4 harg4 arg5 harg5) K } := by
  refine ⟨?_, ?_, fun E K => ?run⟩
  case run =>
    simp only [cc0__distnet_kernel_eq_skeleton]; unfold cc0__distnet_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Body

end
-- ==== Proof.KernelIdealBody.CaseB.lean ====
/-
  The kernel body at a MIDDLE grid point (1 to 23): it reads the query tile from the scratch (left there by the
  first point), takes the block's minimum and combines it with the running minimum the output buffer holds from
  the point before. Stated on any whole memrefs: the inputs, the output buffer and the scratch at their contents;
  handed back, the scratch as it was and the output buffer holding the piece the body stored (found by running it).
-/
import proofs.«175195_g1580547974396_cont_7to1_126_26_alg».proof.Proof.KernelIdealBody.CaseA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at a middle point (no tile built, no initialising; combining; no finishing). -/
noncomputable def runB (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : ¬cond3 i)
    (x0 : Vec F S1024x16 .f32) (x1 : Vec F S4000x16 .f32) (x2 : Vec F S1x1 .f32) (xo : Vec F S1x1024 .f32) (xs : Vec F S32x1024 .f32) :
    { L3 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs) -∗ K ⟨⟩))
          ⊢ wp frame (wpE (defs₀ (F := F)) Variants.none c none) E (cc0__distnet_kernel i arg1 harg1 arg2 harg2 arg3 harg3 arg4 harg4 arg5 harg5) K } := by
  refine ⟨?_, fun E K => ?run⟩
  case run =>
    simp only [cc0__distnet_kernel_eq_skeleton]; unfold cc0__distnet_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS0

end Cert.KernelIdeal.Body

end
-- ==== Proof.KernelIdealBody.CaseC.lean ====
/-
  The kernel body at the LAST grid point: it reads the query tile from the scratch (left there by the first point),
  takes the block's minimum, combines it with the running minimum the output buffer holds from the point before,
  stores that, reads it back, and stores the finished result: |x|² added, the clip at zero, the translated sigmoid.
  Stated on any whole memrefs: the inputs, the output buffer and the scratch at their contents; handed back, the
  scratch as it was and the output buffer holding the pieces the body stored (found by running the body).
-/
import proofs.«175195_g1580547974396_cont_7to1_126_26_alg».proof.Proof.KernelIdealBody.CaseB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at the last point (no tile built, no initialising; combining and finishing). -/
noncomputable def runC (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : cond3 i)
    (x0 : Vec F S1024x16 .f32) (x1 : Vec F S4000x16 .f32) (x2 : Vec F S1x1 .f32) (xo : Vec F S1x1024 .f32) (xs : Vec F S32x1024 .f32) :
    { L3 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ owns (c : Thread nD τ) arg5 fullShare xs) -∗ K ⟨⟩))
          ⊢ wp frame (wpE (defs₀ (F := F)) Variants.none c none) E (cc0__distnet_kernel i arg1 harg1 arg2 harg2 arg3 harg3 arg4 harg4 arg5 harg5) K } := by
  refine ⟨?_, fun E K => ?run⟩
  case run =>
    simp only [cc0__distnet_kernel_eq_skeleton]; unfold cc0__distnet_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hfs0
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS0

end Cert.KernelIdeal.Body

end
-- ==== Proof.KernelIdealBody.Frame.lean ====
/-
  The frame of the program, with the output's contents NAMED point by point.

  What the output's staging buffer and the scratch hold after the body at each of the 25 grid points is defined by
  recursion on the point (`outsAt`): the first point's stores; at a middle point the body's store over what the
  point before left in the output buffer, the scratch (the augmented query tile) as the first point left it; at
  the last point the finished result. The output's block index never changes and it is written back only after the
  last point, so between points the buffer keeps what the body left. With that proof data the body obligation
  holds at every point (the three runs), the region's launch theorem gives the run of @main, and the frame claim
  follows: the argument arrays end as launched.
-/
import proofs.«175195_g1580547974396_cont_7to1_126_26_alg».proof.Proof.KernelIdealBody.CaseC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point, from its position -/

theorem c0_of (t : Fin cfg0.N) (h : t.val = 0) : cond0 (grid0.coords t) := (hcond0 t).mpr (by rw [h])
theorem c1_of (t : Fin cfg0.N) (h : t.val = 0) : cond1 (grid0.coords t) := (hcond1 t).mpr (by rw [h])
theorem nc2_of (t : Fin cfg0.N) (h : t.val = 0) : ¬cond2 (grid0.coords t) := fun hc => by have := (hcond2 t).mp hc; omega
theorem nc0_of (t : Fin cfg0.N) (h : t.val ≠ 0) : ¬cond0 (grid0.coords t) := fun hc => by
  have := (hcond0 t).mp hc; have hN : t.val < 25 := lt_of_lt_of_eq t.isLt (show cfg0.N = 25 from N_0); omega
theorem nc1_of (t : Fin cfg0.N) (h : t.val ≠ 0) : ¬cond1 (grid0.coords t) := fun hc => by
  have := (hcond1 t).mp hc; have hN : t.val < 25 := lt_of_lt_of_eq t.isLt (show cfg0.N = 25 from N_0); omega
theorem c2_of (t : Fin cfg0.N) (h : t.val ≠ 0) : cond2 (grid0.coords t) := (hcond2 t).mpr (by omega)
theorem c3_of (t : Fin cfg0.N) (h : t.val % 25 = 24) : cond3 (grid0.coords t) := (hcond3 t).mpr h
theorem nc3_of (t : Fin cfg0.N) (h : ¬t.val % 25 = 24) : ¬cond3 (grid0.coords t) := fun hc => h ((hcond3 t).mp hc)

/-! ## What each case leaves -/

/-- The first point's store covers the output buffer. -/
theorem coverA (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : cond0 i) (hc1 : cond1 i) (hc2 : ¬cond2 i) (hc3 : ¬cond3 i)
    (x0 : Vec F S1024x16 .f32) (x1 : Vec F S4000x16 .f32) (x2 : Vec F S1x1 .f32) (y : S1x1024.Idx) :
    ∃ pc ∈ (runA c i arg1 harg1 arg2 harg2 arg3 harg3 arg4 harg4 arg5 harg5 hc0 hc1 hc2 hc3 x0 x1 x2).1, y ∈ pc.1.set :=
  View.cover_of_tiledL (runA c i arg1 harg1 arg2 harg2 arg3 harg3 arg4 harg4 arg5 harg5 hc0 hc1 hc2 hc3 x0 x1 x2).1 S1x1024.size (by sl_kernel_rfl) y
/-- What the first point leaves in the output buffer: its pieces read back. -/
def outA (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : cond0 i) (hc1 : cond1 i) (hc2 : ¬cond2 i) (hc3 : ¬cond3 i)
    (x0 : Vec F S1024x16 .f32) (x1 : Vec F S4000x16 .f32) (x2 : Vec F S1x1 .f32) : Vec F S1x1024 .f32 :=
  VO.read (Elt F) (VO.writes (Elt F) VO.junk (runA c i arg1 harg1 arg2 harg2 arg3 harg3 arg4 harg4 arg5 harg5 hc0 hc1 hc2 hc3 x0 x1 x2).1)
/-- The first point's store of the query tile covers the scratch. -/
theorem coverAS (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : cond0 i) (hc1 : cond1 i) (hc2 : ¬cond2 i) (hc3 : ¬cond3 i)
    (x0 : Vec F S1024x16 .f32) (x1 : Vec F S4000x16 .f32) (x2 : Vec F S1x1 .f32) (y : S32x1024.Idx) :
    ∃ pc ∈ (runA c i arg1 harg1 arg2 harg2 arg3 harg3 arg4 harg4 arg5 harg5 hc0 hc1 hc2 hc3 x0 x1 x2).2.1, y ∈ pc.1.set :=
  View.cover_of_tiledL (runA c i arg1 harg1 arg2 harg2 arg3 harg3 arg4 harg4 arg5 harg5 hc0 hc1 hc2 hc3 x0 x1 x2).2.1 S32x1024.size (by sl_kernel_rfl) y
/-- What the first point leaves in the scratch: the query tile's pieces read back. -/
def scrA (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : cond0 i) (hc1 : cond1 i) (hc2 : ¬cond2 i) (hc3 : ¬cond3 i)
    (x0 : Vec F S1024x16 .f32) (x1 : Vec F S4000x16 .f32) (x2 : Vec F S1x1 .f32) : Vec F S32x1024 .f32 :=
  VS.read (Elt F) (VS.writes (Elt F) VS.junk (runA c i arg1 harg1 arg2 harg2 arg3 harg3 arg4 harg4 arg5 harg5 hc0 hc1 hc2 hc3 x0 x1 x2).2.1)

/-- A middle point's store covers the output buffer. -/
theorem coverB (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : ¬cond3 i)
    (x0 : Vec F S1024x16 .f32) (x1 : Vec F S4000x16 .f32) (x2 : Vec F S1x1 .f32) (xo : Vec F S1x1024 .f32) (xs : Vec F S32x1024 .f32) (y : S1x1024.Idx) :
    ∃ pc ∈ (runB c i arg1 harg1 arg2 harg2 arg3 harg3 arg4 harg4 arg5 harg5 hc0 hc1 hc2 hc3 x0 x1 x2 xo xs).1, y ∈ pc.1.set :=
  View.cover_of_tiledL (runB c i arg1 harg1 arg2 harg2 arg3 harg3 arg4 harg4 arg5 harg5 hc0 hc1 hc2 hc3 x0 x1 x2 xo xs).1 S1x1024.size (by sl_kernel_rfl) y
/-- What a middle point leaves in the output buffer. -/
def outB (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : ¬cond3 i)
    (x0 : Vec F S1024x16 .f32) (x1 : Vec F S4000x16 .f32) (x2 : Vec F S1x1 .f32) (xo : Vec F S1x1024 .f32) (xs : Vec F S32x1024 .f32) : Vec F S1x1024 .f32 :=
  VO.read (Elt F) (VO.writes (Elt F) VO.junk (runB c i arg1 harg1 arg2 harg2 arg3 harg3 arg4 harg4 arg5 harg5 hc0 hc1 hc2 hc3 x0 x1 x2 xo xs).1)

/-- The last point's stores cover the output buffer. -/
theorem coverC (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : cond3 i)
    (x0 : Vec F S1024x16 .f32) (x1 : Vec F S4000x16 .f32) (x2 : Vec F S1x1 .f32) (xo : Vec F S1x1024 .f32) (xs : Vec F S32x1024 .f32) (y : S1x1024.Idx) :
    ∃ pc ∈ (runC c i arg1 harg1 arg2 harg2 arg3 harg3 arg4 harg4 arg5 harg5 hc0 hc1 hc2 hc3 x0 x1 x2 xo xs).1, y ∈ pc.1.set :=
  View.cover_of_tiledL (runC c i arg1 harg1 arg2 harg2 arg3 harg3 arg4 harg4 arg5 harg5 hc0 hc1 hc2 hc3 x0 x1 x2 xo xs).1 S1x1024.size (by sl_kernel_rfl) y
/-- What the last point leaves in the output buffer. -/
def outC (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : cond3 i)
    (x0 : Vec F S1024x16 .f32) (x1 : Vec F S4000x16 .f32) (x2 : Vec F S1x1 .f32) (xo : Vec F S1x1024 .f32) (xs : Vec F S32x1024 .f32) : Vec F S1x1024 .f32 :=
  VO.read (Elt F) (VO.writes (Elt F) VO.junk (runC c i arg1 harg1 arg2 harg2 arg3 harg3 arg4 harg4 arg5 harg5 hc0 hc1 hc2 hc3 x0 x1 x2 xo xs).1)

/-! ## What the output buffer and the scratch hold after each point -/

/-- After the body at position `n`: the output's staging buffer, then the scratch. -/
def outsAt (c : Dev nD) : (n : ℕ) → n < cfg0.N → Vec F S1x1024 .f32 × Vec F S32x1024 .f32
  | 0, hn =>
    (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (c0_of ⟨0, hn⟩ rfl) (c1_of ⟨0, hn⟩ rfl) (nc2_of ⟨0, hn⟩ rfl) (nc3_of ⟨0, hn⟩ (by show ¬((0 : ℕ) % 25 = 24); decide)) (iblk m c 0 ⟨0, hn⟩) (iblk m c 1 ⟨0, hn⟩) (iblk m c 2 ⟨0, hn⟩),
     scrA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (c0_of ⟨0, hn⟩ rfl) (c1_of ⟨0, hn⟩ rfl) (nc2_of ⟨0, hn⟩ rfl) (nc3_of ⟨0, hn⟩ (by show ¬((0 : ℕ) % 25 = 24); decide)) (iblk m c 0 ⟨0, hn⟩) (iblk m c 1 ⟨0, hn⟩) (iblk m c 2 ⟨0, hn⟩))
  | n + 1, hn =>
    if h3 : (n + 1) % 25 = 24 then
      (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (nc0_of ⟨n + 1, hn⟩ (Nat.succ_ne_zero n)) (nc1_of ⟨n + 1, hn⟩ (Nat.succ_ne_zero n)) (c2_of ⟨n + 1, hn⟩ (Nat.succ_ne_zero n)) (c3_of ⟨n + 1, hn⟩ h3) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2,
       (outsAt c n (Nat.lt_of_succ_lt hn)).2)
    else
      (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (nc0_of ⟨n + 1, hn⟩ (Nat.succ_ne_zero n)) (nc1_of ⟨n + 1, hn⟩ (Nat.succ_ne_zero n)) (c2_of ⟨n + 1, hn⟩ (Nat.succ_ne_zero n)) (nc3_of ⟨n + 1, hn⟩ h3) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2,
       (outsAt c n (Nat.lt_of_succ_lt hn)).2)

/-- `outsAt` at the first point. -/
theorem outsAt_A (c : Dev nD) (t : Fin cfg0.N) (h : t.val = 0) :
    outsAt m c t.val t.isLt =
      (outA c (grid0.coords t) (ms0 t) (hs0 t) (ms1 t) (hs1 t) (ms2 t) (hs2 t) (ms3 t) (hs3 t) scM (Memref.isWhole_whole _) (c0_of t h) (c1_of t h) (nc2_of t h) (nc3_of t (by omega)) (iblk m c 0 t) (iblk m c 1 t) (iblk m c 2 t),
       scrA c (grid0.coords t) (ms0 t) (hs0 t) (ms1 t) (hs1 t) (ms2 t) (hs2 t) (ms3 t) (hs3 t) scM (Memref.isWhole_whole _) (c0_of t h) (c1_of t h) (nc2_of t h) (nc3_of t (by omega)) (iblk m c 0 t) (iblk m c 1 t) (iblk m c 2 t)) := by
  obtain ⟨n, hn⟩ := t
  cases n with
  | zero => exact rfl
  | succ n => exact absurd h (Nat.succ_ne_zero n)

/-- `outsAt` at a middle point: the body's store over what the point before left; the scratch kept. -/
theorem outsAt_B (c : Dev nD) (t : Fin cfg0.N) (h : t.val ≠ 0) (h3 : ¬t.val % 25 = 24) :
    outsAt m c t.val t.isLt =
      (outB c (grid0.coords t) (ms0 t) (hs0 t) (ms1 t) (hs1 t) (ms2 t) (hs2 t) (ms3 t) (hs3 t) scM (Memref.isWhole_whole _) (nc0_of t h) (nc1_of t h) (c2_of t h) (nc3_of t h3) (iblk m c 0 t) (iblk m c 1 t) (iblk m c 2 t)
          (outsAt m c (t.val - 1) (Nat.lt_of_le_of_lt (Nat.sub_le _ _) t.isLt)).1 (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd rfl h
  | succ n => exact (dif_neg h3).trans rfl

/-- `outsAt` at the last point: the finished result over what the point before left; the scratch kept. -/
theorem outsAt_C (c : Dev nD) (t : Fin cfg0.N) (h : t.val ≠ 0) (h3 : t.val % 25 = 24) :
    outsAt m c t.val t.isLt =
      (outC c (grid0.coords t) (ms0 t) (hs0 t) (ms1 t) (hs1 t) (ms2 t) (hs2 t) (ms3 t) (hs3 t) scM (Memref.isWhole_whole _) (nc0_of t h) (nc1_of t h) (c2_of t h) (c3_of t h3) (iblk m c 0 t) (iblk m c 1 t) (iblk m c 2 t)
          (outsAt m c (t.val - 1) (Nat.lt_of_le_of_lt (Nat.sub_le _ _) t.isLt)).1 (outsAt m c (t.val - 1) (Nat.lt_of_le_of_lt (Nat.sub_le _ _) t.isLt)).2,
       (outsAt m c (t.val - 1) (Nat.lt_of_le_of_lt (Nat.sub_le _ _) t.isLt)).2) := by
  obtain ⟨n, hn⟩ := t
  cases n with
  | zero => exact absurd rfl h
  | succ n => exact (dif_pos h3).trans rfl

/-- The region invariant before position `n`: before the first point the scratch at anything; afterwards the scratch
    at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The arrays as the region finds them; after the body each input's buffer at its block, the output's at `outsAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The output is live at every coordinate (it is stored under `j = 0` or under `j > 0`). -/
theorem live3_all : ∀ i : grid0.Coords, cfg0.idle 3 i = false := by decide +kernel

/-- After the first point the output's staging buffer holds what the body left at the point before: its block index
    does not move and it is written back only after the last point. -/
theorem before_3 (c : Dev nD) (t : Fin cfg0.N) (h : t.val ≠ 0) (d) :
    (dats m 0 c).before 3 t d = (outsAt m c (t.val - 1) (Nat.lt_of_le_of_lt (Nat.sub_le _ _) t.isLt)).1 := by
  have hN : t.val < 25 := lt_of_lt_of_eq t.isLt (show cfg0.N = 25 from N_0)
  rw [Dat.before_out_kept _ 3 rfl t h (Bool.eq_false_iff.mpr fun hf => by have := (flush0_3 _).mp hf; dsimp only at this; omega)
    live3_all (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the position says which case applies; after the
    first point the output buffer holds what the point before left and the scratch the query tile; the run applies,
    and the buffers it hands back hold exactly the pieces read back (the stores cover them). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt (show cfg0.N = 25 from N_0)
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  by_cases hz : t.val = 0
  · rw [outsAt_A m c t hz]
    unfold outA scrA; (try dsimp only)
    rw [PhiS_castSucc m c t, PhiS_zero m c _ _ hz, PhiA_eq]
    iintro ⟨⟨HS0, Hg⟩, Ho, ⟨%d0, H0⟩, ⟨%d1, H1⟩, ⟨%d2, H2⟩, ⟨%d3, H3⟩⟩
    iapply ((runA c (grid0.coords t) _ _ _ _ _ _ _ _ _ _ (c0_of t hz) (c1_of t hz) (nc2_of t hz) (nc3_of t (by omega)) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hg]
    · isplitl [HS0]
      · unfold owns; iexists _; isplitr
        swap; · iexact HS0
        ipureintro; exact View.read_writes_of_cover _ _ _ _ _ (coverAS c _ _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _ _ _ _)
  · simp only [before_3 m c t hz]
    rw [PhiS_castSucc m c t, PhiS_pos m c _ _ hz]
    by_cases h3 : t.val % 25 = 24
    · rw [outsAt_C m c t hz h3]
      unfold outC; (try dsimp only)
      iintro ⟨⟨HS0, Hg⟩, Ho, ⟨%d0, H0⟩, ⟨%d1, H1⟩, ⟨%d2, H2⟩, ⟨%d3, H3⟩⟩
      iapply ((runC c (grid0.coords t) _ _ _ _ _ _ _ _ _ _ (nc0_of t hz) (nc1_of t hz) (c2_of t hz) (c3_of t h3) (iblk m c 0 t) (iblk m c 1 t) (iblk m c 2 t) _ _).2 Set.univ _)
      isplitl [H0]; · iexact H0
      isplitl [H1]; · iexact H1
      isplitl [H2]; · iexact H2
      isplitl [H3]; · iexact H3
      isplitl [HS0]; · iexact HS0
      iintro ⟨H0, H1, H2, ⟨%e3, H3⟩, HS0⟩
      isplitl [HS0 Hg]
      · isplitl [HS0]; · iexact HS0
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _ _ _ _ _)
    · rw [outsAt_B m c t hz h3]
      unfold outB; (try dsimp only)
      iintro ⟨⟨HS0, Hg⟩, Ho, ⟨%d0, H0⟩, ⟨%d1, H1⟩, ⟨%d2, H2⟩, ⟨%d3, H3⟩⟩
      iapply ((runB c (grid0.coords t) _ _ _ _ _ _ _ _ _ _ (nc0_of t hz) (nc1_of t hz) (c2_of t hz) (nc3_of t h3) (iblk m c 0 t) (iblk m c 1 t) (iblk m c 2 t) _ _).2 Set.univ _)
      isplitl [H0]; · iexact H0
      isplitl [H1]; · iexact H1
      isplitl [H2]; · iexact H2
      isplitl [H3]; · iexact H3
      isplitl [HS0]; · iexact HS0
      iintro ⟨H0, H1, H2, ⟨%e3, H3⟩, HS0⟩
      isplitl [HS0 Hg]
      · isplitl [HS0]; · iexact HS0
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB c _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), PhiA_eq]
  iintro ⟨HS0, Hg⟩
  isplitl [HS0]
  · iexists _; iexact HS0
  iexact Hg

/-! ## The run and the frame -/

set_option backward.isDefEq.respectTransparency.types false in
/-- Every weakly fair execution of @main terminates, and in every final state each array of the pipeline is at what
    the proof data gives (the output's array at the last point's block) and every other unscoped buffer as the host
    line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs and its argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KernelIdealBody.Chain.lean ====
/-
  The kernel's value as a chain over the grid points, in the body's own pure terms.

  A point's block of 4000 codebook rows is read as four sub-tiles of 1000 rows; `blockMin` is the minimum the body
  takes over the block given the augmented query tile; `tile` is that tile as the first point builds it from the
  queries; `runMin n` is the running minimum after point `n` (the first point's block minimum, then each later
  block's combined with what the point before left); `finished` is what the last point stores: the running minimum
  after the last block with |x|² added, clipped at zero, through the translated sigmoid.
-/
import proofs.«175195_g1580547974396_cont_7to1_126_26_alg».proof.Proof.Gen.KernelIdeal.Frame
import proofs.«175195_g1580547974396_cont_7to1_126_26_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two zero offsets, however spelt. -/
theorem hz : (![0, 0] : Fin 2 → Nat) = fun _ => 0 := funext fun a => by fin_cases a <;> rfl

/-- Rows 0 to 999 of a block. -/
abbrev sub0 (x1 : Vec F S4000x16 .f32) : Vec F S1000x16 .f32 :=
  View.ld x1 (Rect.unit (s := S4000x16) ![0, 0] S1000x16.size inb_S4000x16_S1000x16_0_0)
/-- Rows 1000 to 1999 of a block. -/
abbrev sub1 (x1 : Vec F S4000x16 .f32) : Vec F S1000x16 .f32 :=
  View.ld x1 (Rect.unit (s := S4000x16) ![1000, 0] S1000x16.size inb_S4000x16_S1000x16_1000_0)
/-- Rows 2000 to 2999 of a block. -/
abbrev sub2 (x1 : Vec F S4000x16 .f32) : Vec F S1000x16 .f32 :=
  View.ld x1 (Rect.unit (s := S4000x16) ![2000, 0] S1000x16.size inb_S4000x16_S1000x16_2000_0)
/-- Rows 3000 to 3999 of a block. -/
abbrev sub3 (x1 : Vec F S4000x16 .f32) : Vec F S1000x16 .f32 :=
  View.ld x1 (Rect.unit (s := S4000x16) ![3000, 0] S1000x16.size inb_S4000x16_S1000x16_3000_0)

/-- The minimum the body takes over one block `x1`, given the query tile `xs`. -/
def blockMin (xs : Vec F S32x1024 .f32) (x1 : Vec F S4000x16 .f32) : FVec F S1x1024 .f32 :=
  k0_pay4 xs (sub0 x1) (sub1 x1) (sub2 x1) (sub3 x1)

theorem N_pos : 0 < cfg0.N := by rw [show cfg0.N = 25 from N_0]; decide
theorem N_last : 24 < cfg0.N := by rw [show cfg0.N = 25 from N_0]; decide

/-- The augmented query tile, as the first point builds it from its query block. -/
def tile (c : Dev nD) : FVec F S32x1024 .f32 := k0_pay3 (iblk m c 0 ⟨0, N_pos⟩)

/-- The running minimum after point `n`. -/
def runMin (c : Dev nD) : (n : ℕ) → n < cfg0.N → FVec F S1x1024 .f32
  | 0, h => blockMin (tile m c) (iblk m c 1 ⟨0, h⟩)
  | n + 1, h => k0_pay1 (blockMin (tile m c) (iblk m c 1 ⟨n + 1, h⟩)) (runMin c n (Nat.lt_of_succ_lt h))

/-- What the last point stores: the finished result block. -/
def finished (c : Dev nD) : FVec F S1x1024 .f32 :=
  k0_pay2 (iblk m c 0 ⟨24, N_last⟩) (runMin m c 24 N_last) (iblk m c 2 ⟨24, N_last⟩)

end Cert.KernelIdeal.Body

end
-- ==== Proof.KernelIdealBody.Value.lean ====
/-
  The idealized kernel's VALUE, read off its frame run.

  Each case's stores, read back, are the body's own pure terms of what it loaded (the block's minimum against the
  query tile; the combination with the running minimum; the final step). By induction on the grid point the output
  buffer holds the running minimum after every point before the last and the scratch holds the query tile; after the
  last point the buffer holds the finished block, which the one write-back copies to the result array, and the host
  reshapes to the program's result.
-/
import proofs.«175195_g1580547974396_cont_7to1_126_26_alg».proof.Proof.KernelIdealBody.Frame
import proofs.«175195_g1580547974396_cont_7to1_126_26_alg».proof.Proof.KernelIdealBody.Chain
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave, as the body's pure terms -/

/-- The first point leaves the query tile in the scratch: its one covering store's payload. -/
theorem scrA_eq (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : cond0 i) (hc1 : cond1 i) (hc2 : ¬cond2 i) (hc3 : ¬cond3 i) (x0 : Vec F S1024x16 .f32) (x1 : Vec F S4000x16 .f32) (x2 : Vec F S1x1 .f32) :
    scrA c i arg1 harg1 arg2 harg2 arg3 harg3 arg4 harg4 arg5 harg5 hc0 hc1 hc2 hc3 x0 x1 x2 = k0_pay3 x0 := by
  unfold scrA
  rw [View.read_writes_eq_canon _ _ _ (coverAS c i arg1 harg1 arg2 harg2 arg3 harg3 arg4 harg4 arg5 harg5 hc0 hc1 hc2 hc3 x0 x1 x2)]
  unfold runA
  dsimp only
  sl_unfold_words
  rw [View.canon_unit_zero hz]
  simp only [View.readAt_eq_ld, harg1.read_unread, View.ld_unit_zero (S := S1024x16) hz]

/-- The first point leaves the block's minimum in the output buffer, taken against the tile it has just built and
    read back. -/
theorem outA_eq (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : cond0 i) (hc1 : cond1 i) (hc2 : ¬cond2 i) (hc3 : ¬cond3 i) (x0 : Vec F S1024x16 .f32) (x1 : Vec F S4000x16 .f32) (x2 : Vec F S1x1 .f32) :
    outA c i arg1 harg1 arg2 harg2 arg3 harg3 arg4 harg4 arg5 harg5 hc0 hc1 hc2 hc3 x0 x1 x2 = blockMin (k0_pay3 x0) x1 := by
  unfold outA
  rw [View.read_writes_eq_canon _ _ _ (coverA c i arg1 harg1 arg2 harg2 arg3 harg3 arg4 harg4 arg5 harg5 hc0 hc1 hc2 hc3 x0 x1 x2)]
  unfold runA
  dsimp only
  sl_unfold_words
  rw [View.canon_unit_zero hz]
  unfold blockMin
  simp only [View.readAt_eq_ld, harg1.read_unread, harg2.read_unread, View.ld_unit_zero (S := S1024x16) hz,
    View.readCov_unit_zero (S := S32x1024) _ hz]

/-- A middle point leaves the block's minimum combined with what the buffer held. -/
theorem outB_eq (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : ¬cond3 i) (x0 : Vec F S1024x16 .f32) (x1 : Vec F S4000x16 .f32) (x2 : Vec F S1x1 .f32) (xo : Vec F S1x1024 .f32) (xs : Vec F S32x1024 .f32) :
    outB c i arg1 harg1 arg2 harg2 arg3 harg3 arg4 harg4 arg5 harg5 hc0 hc1 hc2 hc3 x0 x1 x2 xo xs = k0_pay1 (blockMin xs x1) xo := by
  unfold outB
  rw [View.read_writes_eq_canon _ _ _ (coverB c i arg1 harg1 arg2 harg2 arg3 harg3 arg4 harg4 arg5 harg5 hc0 hc1 hc2 hc3 x0 x1 x2 xo xs)]
  unfold runB
  dsimp only
  sl_unfold_words
  rw [View.canon_unit_zero hz]
  unfold blockMin
  simp only [View.readAt_eq_ld, harg2.read_unread, harg4.read_unread, harg5.read_unread,
    View.ld_unit_zero (S := S1x1024) hz, View.ld_unit_zero (S := S32x1024) hz]

/-- The last point leaves the finished result: the combined minimum, stored and read back, through the final step. -/
theorem outC_eq (c : Dev nD) (i : grid0.Coords) (arg1 : Memref sig .tc .vmem S1024x16 .f32) (harg1 : arg1.IsWhole) (arg2 : Memref sig .tc .vmem S4000x16 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S32x1024 .f32) (harg5 : arg5.IsWhole) (hc0 : ¬cond0 i) (hc1 : ¬cond1 i) (hc2 : cond2 i) (hc3 : cond3 i) (x0 : Vec F S1024x16 .f32) (x1 : Vec F S4000x16 .f32) (x2 : Vec F S1x1 .f32) (xo : Vec F S1x1024 .f32) (xs : Vec F S32x1024 .f32) :
    outC c i arg1 harg1 arg2 harg2 arg3 harg3 arg4 harg4 arg5 harg5 hc0 hc1 hc2 hc3 x0 x1 x2 xo xs = k0_pay2 x0 (k0_pay1 (blockMin xs x1) xo) x2 := by
  unfold outC
  rw [View.read_writes_eq_canon _ _ _ (coverC c i arg1 harg1 arg2 harg2 arg3 harg3 arg4 harg4 arg5 harg5 hc0 hc1 hc2 hc3 x0 x1 x2 xo xs)]
  unfold runC
  dsimp only
  sl_unfold_words
  rw [View.canon_cons_unit_zero (S := S1x1024) hz]
  unfold blockMin
  simp only [View.readAt_eq_ld, harg1.read_unread, harg2.read_unread, harg3.read_unread, harg4.read_unread, harg5.read_unread,
    View.ld_unit_zero (S := S1x1024) hz, View.ld_unit_zero (S := S32x1024) hz, View.ld_unit_zero (S := S1024x16) hz,
    View.ld_unit_zero (S := S1x1) hz, View.readCov_unit_zero (S := S1x1024) _ hz]

/-! ## The chain over the points -/

/-- After each point before the last the output buffer holds the running minimum and the scratch the query tile:
    by induction on the point. -/
theorem outsAt_eq (c : Dev nD) : ∀ (n : ℕ) (h : n < cfg0.N), n < 24 → outsAt m c n h = (runMin m c n h, tile m c)
  | 0, h, _ => (outsAt_A m c ⟨0, h⟩ rfl).trans (by rw [outA_eq, scrA_eq]; rfl)
  | n + 1, h, h24 => by
    have hB : ¬(⟨n + 1, h⟩ : Fin cfg0.N).val % 25 = 24 := by dsimp only; omega
    rw [outsAt_B m c ⟨n + 1, h⟩ (Nat.succ_ne_zero n) hB, outB_eq]
    show (k0_pay1 (blockMin (outsAt m c n _).2 _) (outsAt m c n _).1, (outsAt m c n _).2) = _
    rw [outsAt_eq c n (Nat.lt_of_succ_lt h) (by omega)]
    rfl

/-- After the last point the output buffer holds the finished result. -/
theorem outsAt_last (c : Dev nD) : (outsAt m c 24 N_last).1 = finished m c := by
  have h3 : (⟨24, N_last⟩ : Fin cfg0.N).val % 25 = 24 := rfl
  have h0 : (⟨24, N_last⟩ : Fin cfg0.N).val ≠ 0 := by decide
  rw [show outsAt m c 24 N_last = _ from outsAt_C m c ⟨24, N_last⟩ h0 h3]
  dsimp only
  rw [outC_eq]
  show k0_pay2 _ (k0_pay1 (blockMin (outsAt m c 23 _).2 _) (outsAt m c 23 _).1) _ = _
  rw [outsAt_eq m c 23 _ (by decide)]
  rfl

/-! ## The result array -/

/-- The result array's contents: its one block is the whole array. -/
abbrev result (c : Dev nD) : Buf (Elt F) ((c : Thread nD τ).loc main_v1) := finished m c

/-- The output's block index is (0, 0) at every point, and its block is the whole [1, 1024] array. -/
theorem idx3 : ∀ t : Fin cfg0.N, ∀ a, win0_3.index t a = 0 :=
  (by decide +kernel : ∀ t : Fin grid0.N, ∀ a, win0_3.index t a = 0)
theorem xsize3 : ∀ t : Fin cfg0.N, win0_3.xsize (grid0.coords t) 0 = 1 ∧ win0_3.xsize (grid0.coords t) 1 = 1024 :=
  (by decide +kernel : ∀ t : Fin grid0.N, win0_3.xsize (grid0.coords t) 0 = 1 ∧ win0_3.xsize (grid0.coords t) 1 = 1024)

/-- The one write-back, after the last point, writes the finished block. -/
theorem flushed_eq (c : Dev nD) (t : Fin cfg0.N) (hf : (cfg0.win 3).flush t = true) :
    (dats m 0 c).flushed 3 t = ((cfg0.win 3).blk t).view.read (Elt F) (result m c) := by
  have hN : cfg0.N = 25 := N_0
  have h24 : t.val = 24 := by have := (flush0_3 t).mp hf; have := t.isLt; omega
  obtain rfl : t = ⟨24, N_last⟩ := Fin.ext h24
  show (cfg0.win 3).cut (grid0.coords ⟨24, N_last⟩) ((dats m 0 c).after 3 ⟨24, N_last⟩) = _
  rw [after_3, outsAt_last]
  have hz' : (fun a => win0_3.index ⟨24, N_last⟩ a * main_v1.ty.shape.size a) = fun _ => 0 :=
    funext fun a => by rw [idx3]; exact Nat.zero_mul _
  exact (Memref.read_access_unit_zero (Elt F) main_v1 hz' (fun a => by rw [congrFun hz' a]; simp) (result m c)).symm

/-- So the result array ends holding the finished block. -/
theorem final3 (c : Dev nD) : (dats m 0 c).arrAt 3 cfg0.N = result m c :=
  (dats m 0 c).arrAt_eq_of_cover 3 (result m c) (flushed_eq m c) fun i =>
    ⟨⟨24, N_last⟩, (flush0_3 _).mpr rfl, by
      show i ∈ ((View.whole main_v1).slice (win0_3.rect ⟨24, N_last⟩)).set
      rw [View.set_slice_whole, Rect.mem_set_unit]
      intro a
      have h0 : (i 0 : Nat) < 1 := (i 0).isLt
      have h1 : (i 1 : Nat) < 1024 := (i 1).isLt
      match a with
      | ⟨0, _⟩ => show win0_3.index ⟨24, N_last⟩ 0 * win0_3.size 0 ≤ (i 0 : Nat) ∧ (i 0 : Nat) < win0_3.index ⟨24, N_last⟩ 0 * win0_3.size 0 + win0_3.xsize (grid0.coords ⟨24, N_last⟩) 0
                  rw [idx3, (xsize3 _).1]; omega
      | ⟨1, _⟩ => show win0_3.index ⟨24, N_last⟩ 1 * win0_3.size 1 ≤ (i 1 : Nat) ∧ (i 1 : Nat) < win0_3.index ⟨24, N_last⟩ 1 * win0_3.size 1 + win0_3.xsize (grid0.coords ⟨24, N_last⟩) 1
                  rw [idx3, (xsize3 _).2]; omega⟩

/-! ## The host line after the region, and the run read -/

/-- The program's result buffer: the host reshapes the [1, 1024] result array to [1024]. -/
theorem tail_eq (c : Dev nD) :
    Pipeline.afterTail₀ cfgs (dats m) 0 (V0 m) [hostOps1] c main_v2 = shapeCast S1024 (result m c) shapeCasts_S1x1024_S1024 := by
  have e := (Pipeline.withArrays_arr spec0 launch0.win.arr_inj c (V0 m c) (fun w => (dats m 0 c).arrAt w (cfgs 0).N) 3).trans (final3 m c)
  unfold Pipeline.afterTail₀
  show StableHlo.after hostOps1 _ (Proc.devRef .tc main_v2) = _
  after_results
  funext i
  exact congrArg (fun X : Buf (Elt F) ((c : Thread nD τ).loc main_v1) => shapeCast S1024 X shapeCasts_S1x1024_S1024 i) e

/-- THE RUN, READ: every weakly fair execution of @main terminates with the result buffer at the finished block
    reshaped, and the argument arrays as launched. -/
theorem run : θ_run defs (onTc (τ := τ) (main (F := F))) ⟨m, fun _ => 0, ρ⟩ (fun r => ∀ c : Dev nD,
      r.2.mem ((c.tc : Thread nD τ).loc main_v2) = shapeCast S1024 (finished m c) shapeCasts_S1x1024_S1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v2 (Pipeline.mem_restRefs_of main_v2 (by decide) (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.Body

end
-- ==== Proof.Spec.lean ====
/-
  The mathematics of the certificate, free of both programs.

  For queries `X : [1024, 16]`, codebook points `P : [100000, 16]` and a parameter `B : [1]`, over the
  extended reals:
  * the reference's value `Gref`: the squared distance `|x|² + |p|² - 2 x·p` clipped below at zero, its
    minimum over the points, then the translated sigmoid `σ((d - L·b) / b)` with `b = softplus β`;
  * the kernel's value `Gker`: the minimum over the points of `c = Σ p·(-2x) + Σ p²·1` (one augmented
    contraction), `|x|²` added and the clip applied once to that minimum, then the same sigmoid.
  `L` is the f32 word `0x40DD0C53`; the kernel multiplies by the word with the sign bit set, which denotes `-L`.
-/
import Idealize.ShloMosaic.PureOps.Ideal
import Idealize.ShloMosaic.Lib.ValueIdx

noncomputable section

namespace Cert.DistNet

open Idealize.ShloMosaic Idealize.ShloMosaic.ValueIdx

abbrev SX : Shape := ⟨2, ![1024, 16]⟩
abbrev SP : Shape := ⟨2, ![100000, 16]⟩
abbrev SB : Shape := ⟨1, ![1]⟩
abbrev SO : Shape := ⟨1, ![1024]⟩

/-- The translation constant `log 1000` as the reference spells it: an f32 word, never evaluated. -/
def L : EReal := Ideal.ofBits .f32 0x40DD0C53#32

/-- `softplus β = max β 0 + log (1 + e^{-|β|})`, with `|β| = max β (-β)`. -/
def softplus (β : EReal) : EReal := max β 0 + Ideal.log1p (Ideal.exp (-(max β (-β))))

/-- `|x_q|²`. -/
def sqX (X : SX.Idx → EReal) (q : Fin 1024) : EReal := ∑ d : Fin 16, X (ix2 q d) * X (ix2 q d)
/-- `|p_i|²`. -/
def sqP (P : SP.Idx → EReal) (i : Fin 100000) : EReal := ∑ d : Fin 16, P (ix2 i d) * P (ix2 i d)
/-- `x_q · p_i`. -/
def dotXP (X : SX.Idx → EReal) (P : SP.Idx → EReal) (q : Fin 1024) (i : Fin 100000) : EReal :=
  ∑ d : Fin 16, X (ix2 q d) * P (ix2 i d)

/-- The reference's clipped squared distance from query `q` to point `i`. -/
def d2 (X : SX.Idx → EReal) (P : SP.Idx → EReal) (q : Fin 1024) (i : Fin 100000) : EReal :=
  max 0 ((sqX X q + sqP P i) - 2 * dotXP X P q i)

/-- The translated sigmoid of a distance `d` at parameter `β`: `σ((d + (-b)·L) / b)`, `b = softplus β`. -/
def tsig (β d : EReal) : EReal :=
  Ideal.logistic (Ideal.div (d + (-(softplus β)) * L) (softplus β))

/-- THE REFERENCE'S VALUE. -/
def Gref (X : SX.Idx → EReal) (P : SP.Idx → EReal) (B : SB.Idx → EReal) : SO.Idx → EReal := fun j =>
  tsig (B (ix1 0)) (⨅ i : Fin 100000, d2 X P (j 0) i)

/-- The kernel's augmented contraction for query `q` and point `i`: `Σ_d p·(-2x) + Σ_d p²·1`. -/
def cK (X : SX.Idx → EReal) (P : SP.Idx → EReal) (q : Fin 1024) (i : Fin 100000) : EReal :=
  (∑ d : Fin 16, P (ix2 i d) * (-2 * X (ix2 q d))) + ∑ d : Fin 16, (P (ix2 i d) * P (ix2 i d)) * 1

/-- The kernel's `|x_q|²`, a contraction against a row of ones. -/
def sqXk (X : SX.Idx → EReal) (q : Fin 1024) : EReal := ∑ d : Fin 16, 1 * (X (ix2 q d) * X (ix2 q d))

/-- The kernel's translated sigmoid: it multiplies `b` by the NEGATED constant. -/
def tsigK (β d : EReal) : EReal :=
  Ideal.logistic (Ideal.div (d + (-L) * softplus β) (softplus β))

/-- THE KERNEL'S VALUE. -/
def Gker (X : SX.Idx → EReal) (P : SP.Idx → EReal) (B : SB.Idx → EReal) : SO.Idx → EReal := fun j =>
  tsigK (B (ix1 0)) (max (sqXk X (j 0) + ⨅ i : Fin 100000, cK X P (j 0) i) 0)

end Cert.DistNet

end
-- ==== Proof.Law.lean ====
/-
  The one algebraic law of the certificate and the constants both sides spell.

  Constants: the f32 words for 1, 2, -2 and -L as extended reals.
  Law: for finite queries and points, the minimum over the points of the clipped squared distance equals the
  clip, applied once, of |x|² plus the minimum of the augmented contraction; and the two spellings of the
  translated sigmoid agree.
-/
import proofs.«175195_g1580547974396_cont_7to1_126_26_alg».proof.Proof.Spec
import Mathlib.Data.EReal.Operations
import Mathlib.Algebra.BigOperators.Fin
import Mathlib.Data.Fintype.Lattice
import Mathlib.Order.ConditionallyCompleteLattice.Finset
import Mathlib.Tactic.Ring
import Mathlib.Tactic.NormNum

noncomputable section

namespace Cert.DistNet

open Idealize.ShloMosaic Idealize.ShloMosaic.ValueIdx

/-! ## Constants -/

/-- The f32 word of `1.0` denotes `1`. -/
theorem ofBits_one : Ideal.ofBits .f32 0x3F800000#32 = 1 := by
  rw [show (1 : EReal) = ((1 : ℝ) : EReal) by norm_cast]
  simp [Ideal.ofBits, Ideal.ieee, -EReal.coe_mul]; norm_num

/-- The f32 word of `2.0` denotes `2`. -/
theorem ofBits_two : Ideal.ofBits .f32 0x40000000#32 = 2 := by
  rw [show (2 : EReal) = ((2 : ℝ) : EReal) by norm_cast]
  simp [Ideal.ofBits, Ideal.ieee, -EReal.coe_mul]; norm_num

/-- The f32 word of `-2.0` denotes `-2`. -/
theorem ofBits_neg_two : Ideal.ofBits .f32 0xC0000000#32 = -2 := by
  have h : Ideal.ofBits .f32 0xC0000000#32 = ((-(2 : ℝ) : ℝ) : EReal) := by
    simp [Ideal.ofBits, Ideal.ieee, -EReal.coe_mul, -EReal.coe_neg]; norm_num
  have h2 : ((2 : ℝ) : EReal) = 2 := by norm_cast
  rw [h, EReal.coe_neg, h2]

/-- The word of `L` with its sign bit set denotes `-L`: both words evaluate to a real and its negation. -/
theorem ofBits_negL : Ideal.ofBits .f32 0xC0DD0C53#32 = -L := by
  unfold L
  simp [Ideal.ofBits, Ideal.ieee, -EReal.coe_mul, -EReal.coe_neg]
  exact EReal.coe_neg _

/-! ## The law -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a real maximum is the maximum of the coercions. -/
theorem coe_max (a b : ℝ) : ((max a b : ℝ) : EReal) = max (a : EReal) (b : EReal) :=
  EReal.coe_strictMono.monotone.map_max

/-- The two spellings of the translated sigmoid agree: `(-L)·b = -(L·b) = -(b·L) = (-b)·L`, whatever `b` is. -/
theorem tsigK_eq_tsig (β d : EReal) : tsigK β d = tsig β d := by
  unfold tsigK tsig
  rw [EReal.neg_mul, EReal.neg_mul, mul_comm L]

/-- Over a finite nonempty index set, adding a real `s` to the minimum of reals `c i` and clipping once at zero
    is the minimum of the clipped `s + c i`: both are attained at a minimizer of `c`, since `t ↦ max 0 (s + t)` is
    monotone. -/
theorem clip_min {ι : Type} [Finite ι] [Nonempty ι] (s : ℝ) (c : ι → ℝ) :
    max ((s : EReal) + ⨅ i, (c i : EReal)) 0 = ⨅ i, ((max 0 (s + c i) : ℝ) : EReal) := by
  obtain ⟨i₀, hmin⟩ := Finite.exists_min c
  have h1 : (⨅ i, (c i : EReal)) = (c i₀ : EReal) :=
    le_antisymm (iInf_le _ i₀) (le_iInf fun i => EReal.coe_le_coe_iff.mpr (hmin i))
  have h2 : (⨅ i, ((max 0 (s + c i) : ℝ) : EReal)) = ((max 0 (s + c i₀) : ℝ) : EReal) :=
    le_antisymm (iInf_le _ i₀)
      (le_iInf fun i => EReal.coe_le_coe_iff.mpr (max_le_max le_rfl (add_le_add le_rfl (hmin i))))
  rw [h1, h2, ← EReal.coe_add, max_comm, coe_max, EReal.coe_zero]

/-- At real data the kernel's `|x_q|²` is the coercion of the real sum. -/
theorem sqXk_coe (x : SX.Idx → ℝ) (q : Fin 1024) :
    sqXk (fun a => (x a : EReal)) q = ((∑ d : Fin 16, 1 * (x (ix2 q d) * x (ix2 q d)) : ℝ) : EReal) := by
  unfold sqXk
  rw [coe_sum]
  simp only [EReal.coe_mul, EReal.coe_one]

/-- At real data the kernel's augmented contraction is the coercion of the real one. -/
theorem cK_coe (x : SX.Idx → ℝ) (p : SP.Idx → ℝ) (q : Fin 1024) (i : Fin 100000) :
    cK (fun a => (x a : EReal)) (fun a => (p a : EReal)) q i
      = (((∑ d : Fin 16, p (ix2 i d) * (-2 * x (ix2 q d)))
          + ∑ d : Fin 16, (p (ix2 i d) * p (ix2 i d)) * 1 : ℝ) : EReal) := by
  have h2 : ((2 : ℝ) : EReal) = 2 := by norm_cast
  unfold cK
  rw [EReal.coe_add, coe_sum, coe_sum]
  simp only [EReal.coe_mul, EReal.coe_neg, EReal.coe_one, h2]

/-- At real data the reference's clipped squared distance is the coercion of `max 0 (|x|² + c)`, `c` the real
    augmented contraction: `|x|² + |p|² - 2 x·p = |x|² + (Σ p·(-2x) + Σ p²)` termwise. -/
theorem d2_coe (x : SX.Idx → ℝ) (p : SP.Idx → ℝ) (q : Fin 1024) (i : Fin 100000) :
    d2 (fun a => (x a : EReal)) (fun a => (p a : EReal)) q i
      = ((max 0 ((∑ d : Fin 16, 1 * (x (ix2 q d) * x (ix2 q d)))
          + ((∑ d : Fin 16, p (ix2 i d) * (-2 * x (ix2 q d)))
            + ∑ d : Fin 16, (p (ix2 i d) * p (ix2 i d)) * 1)) : ℝ) : EReal) := by
  have h2 : ((2 : ℝ) : EReal) = 2 := by norm_cast
  have hreal : (∑ d : Fin 16, 1 * (x (ix2 q d) * x (ix2 q d)))
        + ((∑ d : Fin 16, p (ix2 i d) * (-2 * x (ix2 q d))) + ∑ d : Fin 16, (p (ix2 i d) * p (ix2 i d)) * 1)
      = ((∑ d : Fin 16, x (ix2 q d) * x (ix2 q d)) + ∑ d : Fin 16, p (ix2 i d) * p (ix2 i d))
        - 2 * ∑ d : Fin 16, x (ix2 q d) * p (ix2 i d) := by
    rw [Finset.mul_sum, ← Finset.sum_add_distrib, ← Finset.sum_add_distrib, ← Finset.sum_add_distrib,
      ← Finset.sum_sub_distrib]
    exact Finset.sum_congr rfl (fun d _ => by ring)
  rw [hreal, coe_max, EReal.coe_zero, EReal.coe_sub, EReal.coe_add, EReal.coe_mul, coe_sum, coe_sum, coe_sum]
  unfold d2 sqX sqP dotXP
  simp only [EReal.coe_mul, h2]

/-- THE LAW: at finite queries and points the kernel's value is the reference's. -/
theorem Gker_eq_Gref (X : SX.Idx → EReal) (P : SP.Idx → EReal) (B : SB.Idx → EReal)
    (hX : ∀ i, ∃ r : ℝ, X i = (r : EReal)) (hP : ∀ i, ∃ r : ℝ, P i = (r : EReal)) : Gker X P B = Gref X P B := by
  choose x hx using hX
  choose p hp using hP
  obtain rfl : X = fun a => (x a : EReal) := funext hx
  obtain rfl : P = fun a => (p a : EReal) := funext hp
  haveI : Nonempty (Fin 100000) := ⟨⟨0, by norm_num⟩⟩
  have key : ∀ q : Fin 1024,
      max (sqXk (fun a => (x a : EReal)) q + ⨅ i : Fin 100000, cK (fun a => (x a : EReal)) (fun a => (p a : EReal)) q i) 0
        = ⨅ i : Fin 100000, d2 (fun a => (x a : EReal)) (fun a => (p a : EReal)) q i := by
    intro q
    rw [sqXk_coe]
    simp only [cK_coe, d2_coe]
    exact clip_min _ _
  funext j
  unfold Gker Gref
  rw [tsigK_eq_tsig]
  congr 1
  exact key (j 0)

end Cert.DistNet

end
-- ==== Proof.KerPay.lean ====
/-
  The kernel's four payloads read at an index, over the extended reals.

  * the augmented query tile: row `k` of the transposed concatenation `[-2·X, 1]` is `-2·x_q[k]` for `k < 16` and `1` after;
  * one point block's step: for each of four 1000-row sub-tiles the contraction of `[p, p²]` against that tile,
    minimized over the rows, and the minimum of the four;
  * the running minimum's update;
  * the final step: `|x|²` as a contraction against a row of ones, added, clipped at zero, and the translated sigmoid.
  And the minimum over 100000 points split into 25 blocks of 4 sub-tiles of 1000 rows.
-/
import proofs.«175195_g1580547974396_cont_7to1_126_26_alg».proof.Proof.Gen.KernelIdeal.Skeleton
import proofs.«175195_g1580547974396_cont_7to1_126_26_alg».proof.Proof.Spec
import proofs.«175195_g1580547974396_cont_7to1_126_26_alg».proof.Proof.Law
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Idealize.ShloMosaic.Lib.IdealHost

noncomputable section

namespace Cert.DistNet.Ker

open Cert.KernelIdeal Cert.KernelIdeal.Gen Idealize.ShloMosaic Idealize.ShloMosaic.ValueIdx

/-! ## Layout: a concatenation of two 16-column pieces along the columns -/

theorem concat16_left {n : ℕ} (x₁ x₂ : (⟨2, ![n, 16]⟩ : Shape).Idx → EReal)
    (h : Shape.Concatenates [⟨2, ![n, 16]⟩, ⟨2, ![n, 16]⟩] ⟨2, ![n, 32]⟩ 1) (r : Fin n) (k : Fin 32) (hk : k.val < 16) :
    concatenate ⟨2, ![n, 32]⟩ 1 [⟨⟨2, ![n, 16]⟩, x₁⟩, ⟨⟨2, ![n, 16]⟩, x₂⟩] h (ix2 r k) = x₁ (ix2 r ⟨k.val, hk⟩) :=
  concatenate_pair_apply_left (t := ⟨2, ![n, 32]⟩) (s₁ := ⟨2, ![n, 16]⟩) (s₂ := ⟨2, ![n, 16]⟩) 1 x₁ x₂ h (ix2 r k) rfl
    (ix2 r ⟨k.val, hk⟩) (fun b => match b with | ⟨0, _⟩ => rfl | ⟨1, _⟩ => rfl)

theorem concat16_right {n : ℕ} (x₁ x₂ : (⟨2, ![n, 16]⟩ : Shape).Idx → EReal)
    (h : Shape.Concatenates [⟨2, ![n, 16]⟩, ⟨2, ![n, 16]⟩] ⟨2, ![n, 32]⟩ 1) (r : Fin n) (k : Fin 32) (hk : 16 ≤ k.val) :
    concatenate ⟨2, ![n, 32]⟩ 1 [⟨⟨2, ![n, 16]⟩, x₁⟩, ⟨⟨2, ![n, 16]⟩, x₂⟩] h (ix2 r k)
      = x₂ (ix2 r ⟨k.val - 16, by have := k.isLt; omega⟩) :=
  concatenate_pair_apply_right (t := ⟨2, ![n, 32]⟩) (s₁ := ⟨2, ![n, 16]⟩) (s₂ := ⟨2, ![n, 16]⟩) 1 x₁ x₂ h (ix2 r k) rfl rfl
    (ix2 r ⟨k.val - 16, by have := k.isLt; omega⟩)
    (fun b hb => match b with | ⟨0, _⟩ => rfl | ⟨1, _⟩ => absurd rfl hb)
    (by show (k.val - 16) + 16 = k.val; omega)

/-! ## The constants -/

/-- the word of `+∞` -/
theorem ofBits_top : Ideal.ofBits .f32 0x7F800000#32 = ⊤ := by rfl

/-! ## The augmented query tile -/

theorem pay3_apply (X : Vec Ideal S1024x16 .f32) (k : Fin 32) (q : Fin 1024) :
    k0_pay3 (F := Ideal) X (ix2 k q) = if h : k.val < 16 then (-2) * X (ix2 q ⟨k.val, h⟩) else 1 := by
  unfold k0_pay3
  simp only [shapeCast_self]
  rw [transpose_ix2_apply]
  by_cases h : k.val < 16
  · rw [dif_pos h, concat16_left _ _ _ q k h, mulf_apply, broadcast_apply]
    show Ideal.ofBits .f32 0xC0000000#32 * _ = _
    rw [ofBits_neg_two]
  · rw [dif_neg h, concat16_right _ _ _ q k (by omega), broadcast_apply]
    exact Ideal.ofBits_one_f32

/-! ## A column's minimum over the rows -/

/-- the fold of `min` from `⊤` over a finite type is the infimum -/
theorem fold_min_top {ι : Type} [Fintype ι] (f : ι → EReal) : (Finset.univ : Finset ι).fold min ⊤ f = ⨅ k, f k := by
  rw [← Finset.inf_univ_eq_iInf]; rfl

theorem min_rows (src : FVec Ideal S1000x1024 .f32) (q : Fin 1024) :
    multiReduction (F := Ideal) .minimumf [0] S1024 src 0x7F800000#32 reduces_S1000x1024_S1024 (.inl rfl) rfl (ix1 q)
      = ⨅ r : Fin 1000, src (ix2 r q) := by
  refine (multiReduction_minimumf_eq_fold src 0x7F800000#32 reduces_S1000x1024_S1024 (.inl rfl) rfl (ix1 q)).trans ?_
  refine (reduces_S1000x1024_S1024.fold_filter_drop_single _ _ src (ix1 q)).trans ?_
  show (Finset.univ : Finset (Fin 1000)).fold min (Ideal.ofBits .f32 0x7F800000#32) _ = _
  rw [ofBits_top]
  refine (fold_min_top _).trans ?_
  refine iInf_congr fun r => ?_
  show src (reduces_S1000x1024_S1024.lift (ix1 q) r) = src (ix2 r q)
  exact congrArg src (funext fun a => Fin.ext (by match a with | ⟨0, _⟩ => rfl | ⟨1, _⟩ => rfl))

/-! ## The two contractions -/

theorem lhs_D1_0 (i : S1000x1024.Idx) (c : dot_S1000x32_S32x1024_S1000x1024_1_0_0_1_n_n.contr.Idx) :
    (dot_S1000x32_S32x1024_S1000x1024_1_0_0_1_n_n.lhsIdx i c 0).val = (i 0).val := by
  unfold DotDims.lhsIdx
  rw [dif_neg (show ¬(0 : Fin S1000x32.rank) ∈ dot_S1000x32_S32x1024_S1000x1024_1_0_0_1_n_n.lhsBatch by decide), dif_pos (show (0 : Fin S1000x32.rank) ∈ dot_S1000x32_S32x1024_S1000x1024_1_0_0_1_n_n.lhsNonContracting by decide)]
  rfl
theorem lhs_D1_1 (i : S1000x1024.Idx) (c : dot_S1000x32_S32x1024_S1000x1024_1_0_0_1_n_n.contr.Idx) :
    (dot_S1000x32_S32x1024_S1000x1024_1_0_0_1_n_n.lhsIdx i c 1).val = (c ⟨0, by decide⟩).val :=
  dot_S1000x32_S32x1024_S1000x1024_1_0_0_1_n_n.lhsIdx_val_of_single rfl i c
theorem rhs_D1_0 (i : S1000x1024.Idx) (c : dot_S1000x32_S32x1024_S1000x1024_1_0_0_1_n_n.contr.Idx) :
    (dot_S1000x32_S32x1024_S1000x1024_1_0_0_1_n_n.rhsIdx i c 0).val = (c ⟨0, by decide⟩).val :=
  dot_S1000x32_S32x1024_S1000x1024_1_0_0_1_n_n.rhsIdx_val_of_single rfl i c
theorem rhs_D1_1 (i : S1000x1024.Idx) (c : dot_S1000x32_S32x1024_S1000x1024_1_0_0_1_n_n.contr.Idx) :
    (dot_S1000x32_S32x1024_S1000x1024_1_0_0_1_n_n.rhsIdx i c 1).val = (i 1).val := by
  unfold DotDims.rhsIdx
  rw [dif_neg (show ¬(1 : Fin S32x1024.rank) ∈ dot_S1000x32_S32x1024_S1000x1024_1_0_0_1_n_n.rhsBatch by decide), dif_pos (show (1 : Fin S32x1024.rank) ∈ dot_S1000x32_S32x1024_S1000x1024_1_0_0_1_n_n.rhsNonContracting by decide)]
  rfl

/-- the point tile's contraction against the query tile, into the zero accumulator -/
theorem matmul_D1_apply (A : FVec Ideal S1000x32 .f32) (B : FVec Ideal S32x1024 .f32) (r : Fin 1000) (q : Fin 1024) :
    matmul dot_S1000x32_S32x1024_S1000x1024_1_0_0_1_n_n none A B (constant (F := Ideal) S1000x1024 .f32 0x00000000#32) (ix2 r q)
      = ∑ k : Fin 32, A (ix2 r k) * B (ix2 k q) := by
  refine (Ideal.matmul_constant_zero_apply dot_S1000x32_S32x1024_S1000x1024_1_0_0_1_n_n none A B (ix2 r q)).trans ?_
  rw [← Equiv.sum_comp (ValueIdx.contrEquiv1 dot_S1000x32_S32x1024_S1000x1024_1_0_0_1_n_n 32 rfl rfl).symm]
  refine Finset.sum_congr rfl fun k _ => ?_
  have hk := ValueIdx.contrEquiv1_symm_val dot_S1000x32_S32x1024_S1000x1024_1_0_0_1_n_n 32 rfl rfl k
  have el : dot_S1000x32_S32x1024_S1000x1024_1_0_0_1_n_n.lhsIdx (ix2 r q) ((ValueIdx.contrEquiv1 dot_S1000x32_S32x1024_S1000x1024_1_0_0_1_n_n 32 rfl rfl).symm k) = ix2 r k := funext fun a => Fin.ext (by
    match a with
    | ⟨0, _⟩ => exact lhs_D1_0 _ _
    | ⟨1, _⟩ => exact (lhs_D1_1 _ _).trans hk)
  have er : dot_S1000x32_S32x1024_S1000x1024_1_0_0_1_n_n.rhsIdx (ix2 r q) ((ValueIdx.contrEquiv1 dot_S1000x32_S32x1024_S1000x1024_1_0_0_1_n_n 32 rfl rfl).symm k) = ix2 k q := funext fun a => Fin.ext (by
    match a with
    | ⟨0, _⟩ => exact (rhs_D1_0 _ _).trans hk
    | ⟨1, _⟩ => exact rhs_D1_1 _ _)
  rw [el, er]

/-! ## One point block's step -/

/-- a sum over 32 positions as the sum over the first 16 plus the sum over the last 16 -/
theorem sum32_split (f : Fin 32 → EReal) :
    ∑ k : Fin 32, f k = (∑ d : Fin 16, f ⟨d.val, by omega⟩) + ∑ d : Fin 16, f ⟨16 + d.val, by omega⟩ :=
  Fin.sum_univ_add (a := 16) (b := 16) f

theorem pay3_left (X : Vec Ideal S1024x16 .f32) (q : Fin 1024) (d : Fin 16) :
    k0_pay3 (F := Ideal) X (ix2 (⟨d.val, by omega⟩ : Fin 32) q) = (-2) * X (ix2 q d) :=
  (pay3_apply X _ q).trans (dif_pos d.isLt)

theorem pay3_right (X : Vec Ideal S1024x16 .f32) (q : Fin 1024) (d : Fin 16) :
    k0_pay3 (F := Ideal) X (ix2 (⟨16 + d.val, by omega⟩ : Fin 32) q) = 1 :=
  (pay3_apply X _ q).trans (dif_neg (show ¬ (16 + d.val < 16) by omega))

theorem aug_left (v : FVec Ideal S1000x16 .f32) (r : Fin 1000) (d : Fin 16) :
    concatenate S1000x32 1 [⟨S1000x16, v⟩, ⟨S1000x16, mulf v v⟩] concatenates_S1000x16_S1000x16_S1000x32_d1
      (ix2 r (⟨d.val, by omega⟩ : Fin 32)) = v (ix2 r d) :=
  concat16_left v (mulf v v) _ r _ d.isLt

theorem aug_right (v : FVec Ideal S1000x16 .f32) (r : Fin 1000) (d : Fin 16) :
    concatenate S1000x32 1 [⟨S1000x16, v⟩, ⟨S1000x16, mulf v v⟩] concatenates_S1000x16_S1000x16_S1000x32_d1
      (ix2 r (⟨16 + d.val, by omega⟩ : Fin 32)) = v (ix2 r d) * v (ix2 r d) := by
  refine (concat16_right v (mulf v v) _ r ⟨16 + d.val, by omega⟩ (Nat.le_add_right 16 d.val)).trans ?_
  have e : (⟨16 + d.val - 16, by omega⟩ : Fin 16) = d := Fin.ext (by show 16 + d.val - 16 = d.val; omega)
  show mulf v v (ix2 r (⟨16 + d.val - 16, _⟩ : Fin 16)) = _
  rw [e, mulf_apply]

/-- one sub-tile's column of minima: the contraction against the query tile `B`, minimized over the 1000 rows -/
def subTile (B : FVec Ideal S32x1024 .f32) (v : FVec Ideal S1000x16 .f32) : FVec Ideal S1x1024 .f32 :=
  shapeCast S1x1024 (multiReduction (F := Ideal) .minimumf [0] S1024
    (matmul dot_S1000x32_S32x1024_S1000x1024_1_0_0_1_n_n none
      (concatenate S1000x32 1 [⟨S1000x16, v⟩, ⟨S1000x16, mulf v v⟩] concatenates_S1000x16_S1000x16_S1000x32_d1) B
      (constant (F := Ideal) S1000x1024 .f32 0x00000000#32))
    0x7F800000#32 reduces_S1000x1024_S1024 (.inl rfl) rfl) shapeCasts_S1024_S1x1024

theorem pay4_eq (B : FVec Ideal S32x1024 .f32) (v4 v10 v17 v24 : FVec Ideal S1000x16 .f32) :
    k0_pay4 (F := Ideal) B v4 v10 v17 v24
      = minimumf (minimumf (minimumf (subTile B v4) (subTile B v10)) (subTile B v17)) (subTile B v24) := rfl

/-- the minimum over one 1000-row sub-tile `v` of the augmented contraction against query `q` -/
def subMin (X : S1024x16.Idx → EReal) (v : S1000x16.Idx → EReal) (q : Fin 1024) : EReal :=
  ⨅ r : Fin 1000, ((∑ d : Fin 16, v (ix2 r d) * (-2 * X (ix2 q d))) + ∑ d : Fin 16, (v (ix2 r d) * v (ix2 r d)) * 1)

theorem subTile_apply (X : Vec Ideal S1024x16 .f32) (v : Vec Ideal S1000x16 .f32) (q : Fin 1024) :
    subTile (k0_pay3 (F := Ideal) X) v (ix2 0 q) = subMin X v q := by
  unfold subTile
  refine (shapeCast_a_1a_apply _ _ 0 q).trans ?_
  refine (min_rows _ q).trans ?_
  unfold subMin
  refine iInf_congr fun r => ?_
  rw [matmul_D1_apply, sum32_split]
  refine congrArg₂ (· + ·) (Finset.sum_congr rfl fun d _ => ?_) (Finset.sum_congr rfl fun d _ => ?_)
  · rw [aug_left, pay3_left]
  · rw [aug_right, pay3_right]

theorem min4_apply (a b c d : FVec Ideal S1x1024 .f32) (i : S1x1024.Idx) :
    minimumf (minimumf (minimumf a b) c) d i = min (min (min (a i) (b i)) (c i)) (d i) := rfl

theorem pay4_apply (X : Vec Ideal S1024x16 .f32) (v4 v10 v17 v24 : Vec Ideal S1000x16 .f32) (q : Fin 1024) :
    k0_pay4 (F := Ideal) (k0_pay3 X) v4 v10 v17 v24 (ix2 0 q)
      = min (min (min (subMin X v4 q) (subMin X v10 q)) (subMin X v17 q)) (subMin X v24 q) := by
  refine (congrFun (pay4_eq (k0_pay3 (F := Ideal) X) v4 v10 v17 v24) (ix2 0 q)).trans ?_
  refine (min4_apply _ _ _ _ _).trans ?_
  exact congrArg₂ min (congrArg₂ min (congrArg₂ min (subTile_apply X v4 q) (subTile_apply X v10 q)) (subTile_apply X v17 q))
    (subTile_apply X v24 q)

/-! ## The final step -/

theorem lhs_D2_0 (i : S1x1024.Idx) (c : dot_S1x16_S1024x16_S1x1024_1_1_0_0_n_n.contr.Idx) :
    (dot_S1x16_S1024x16_S1x1024_1_1_0_0_n_n.lhsIdx i c 0).val = (i 0).val := by
  unfold DotDims.lhsIdx
  rw [dif_neg (show ¬(0 : Fin S1x16.rank) ∈ dot_S1x16_S1024x16_S1x1024_1_1_0_0_n_n.lhsBatch by decide), dif_pos (show (0 : Fin S1x16.rank) ∈ dot_S1x16_S1024x16_S1x1024_1_1_0_0_n_n.lhsNonContracting by decide)]
  rfl
theorem lhs_D2_1 (i : S1x1024.Idx) (c : dot_S1x16_S1024x16_S1x1024_1_1_0_0_n_n.contr.Idx) :
    (dot_S1x16_S1024x16_S1x1024_1_1_0_0_n_n.lhsIdx i c 1).val = (c ⟨0, by decide⟩).val :=
  dot_S1x16_S1024x16_S1x1024_1_1_0_0_n_n.lhsIdx_val_of_single rfl i c
theorem rhs_D2_0 (i : S1x1024.Idx) (c : dot_S1x16_S1024x16_S1x1024_1_1_0_0_n_n.contr.Idx) :
    (dot_S1x16_S1024x16_S1x1024_1_1_0_0_n_n.rhsIdx i c 0).val = (i 1).val := by
  unfold DotDims.rhsIdx
  rw [dif_neg (show ¬(0 : Fin S1024x16.rank) ∈ dot_S1x16_S1024x16_S1x1024_1_1_0_0_n_n.rhsBatch by decide), dif_pos (show (0 : Fin S1024x16.rank) ∈ dot_S1x16_S1024x16_S1x1024_1_1_0_0_n_n.rhsNonContracting by decide)]
  rfl
theorem rhs_D2_1 (i : S1x1024.Idx) (c : dot_S1x16_S1024x16_S1x1024_1_1_0_0_n_n.contr.Idx) :
    (dot_S1x16_S1024x16_S1x1024_1_1_0_0_n_n.rhsIdx i c 1).val = (c ⟨0, by decide⟩).val :=
  dot_S1x16_S1024x16_S1x1024_1_1_0_0_n_n.rhsIdx_val_of_single rfl i c

/-- a row against the rows of a matrix, contracting both operands' columns, into the zero accumulator -/
theorem matmul_D2_apply (A : FVec Ideal S1x16 .f32) (B : FVec Ideal S1024x16 .f32) (q : Fin 1024) :
    matmul dot_S1x16_S1024x16_S1x1024_1_1_0_0_n_n none A B (constant (F := Ideal) S1x1024 .f32 0x00000000#32) (ix2 0 q)
      = ∑ d : Fin 16, A (ix2 0 d) * B (ix2 q d) := by
  refine (Ideal.matmul_constant_zero_apply dot_S1x16_S1024x16_S1x1024_1_1_0_0_n_n none A B (ix2 0 q)).trans ?_
  rw [← Equiv.sum_comp (ValueIdx.contrEquiv1 dot_S1x16_S1024x16_S1x1024_1_1_0_0_n_n 16 rfl rfl).symm]
  refine Finset.sum_congr rfl fun k _ => ?_
  have hk := ValueIdx.contrEquiv1_symm_val dot_S1x16_S1024x16_S1x1024_1_1_0_0_n_n 16 rfl rfl k
  have el : dot_S1x16_S1024x16_S1x1024_1_1_0_0_n_n.lhsIdx (ix2 0 q) ((ValueIdx.contrEquiv1 dot_S1x16_S1024x16_S1x1024_1_1_0_0_n_n 16 rfl rfl).symm k) = ix2 0 k := funext fun a => Fin.ext (by
    match a with
    | ⟨0, _⟩ => exact lhs_D2_0 _ _
    | ⟨1, _⟩ => exact (lhs_D2_1 _ _).trans hk)
  have er : dot_S1x16_S1024x16_S1x1024_1_1_0_0_n_n.rhsIdx (ix2 0 q) ((ValueIdx.contrEquiv1 dot_S1x16_S1024x16_S1x1024_1_1_0_0_n_n 16 rfl rfl).symm k) = ix2 q k := funext fun a => Fin.ext (by
    match a with
    | ⟨0, _⟩ => exact rhs_D2_0 _ _
    | ⟨1, _⟩ => exact (rhs_D2_1 _ _).trans hk)
  rw [el, er]

/-- a `[1,1]` vector broadcast along the row reads its one element -/
theorem bcast11_apply (v : S1x1.Idx → EReal) (h : S1x1.Broadcasts S1x1024) (q : Fin 1024) :
    broadcastTo S1x1024 v h (ix2 0 q) = v (ix2 0 0) :=
  broadcastTo_apply v h _ _ (fun a => match a with
    | ⟨0, _⟩ => rfl
    | ⟨1, _⟩ => rfl)

/-- no extended real differs from itself -/
theorem cmp_one_self (x : EReal) : Ideal.cmp .one x x = 0#1 := by
  show BitVec.ofBool (decide (x ≠ x)) = 0#1
  rw [decide_eq_false (not_not.mpr rfl)]
  rfl

/-- the kernel's softplus of the parameter vector -/
def spV (Bv : FVec Ideal S1x1 .f32) : FVec Ideal S1x1 .f32 :=
  select (cmpf .one (subf Bv (broadcast S1x1 (Ideal.ofBits .f32 0x00000000#32))) (subf Bv (broadcast S1x1 (Ideal.ofBits .f32 0x00000000#32))))
    (addf Bv (broadcast S1x1 (Ideal.ofBits .f32 0x00000000#32)))
    (addf (maximumf Bv (broadcast S1x1 (Ideal.ofBits .f32 0x00000000#32)))
      (log1p (exp (subf (broadcast S1x1 (Ideal.ofBits .f32 0x00000000#32)) (absf (subf Bv (broadcast S1x1 (Ideal.ofBits .f32 0x00000000#32))))))))

theorem spV_apply (Bv : FVec Ideal S1x1 .f32) (i : S1x1.Idx) : spV Bv i = Cert.DistNet.softplus (Bv i) := by
  show Scalar.select (Ideal.cmp .one (Bv i - Ideal.ofBits .f32 0x00000000#32) (Bv i - Ideal.ofBits .f32 0x00000000#32))
      (Bv i + Ideal.ofBits .f32 0x00000000#32)
      (max (Bv i) (Ideal.ofBits .f32 0x00000000#32) + Ideal.log1p (Ideal.exp (Ideal.ofBits .f32 0x00000000#32
        - max (Bv i - Ideal.ofBits .f32 0x00000000#32) (-(Bv i - Ideal.ofBits .f32 0x00000000#32))))) = _
  rw [cmp_one_self, select_zero, Ideal.ofBits_zero_f32, sub_zero, zero_sub]
  rfl

theorem pay2_apply (X : Vec Ideal S1024x16 .f32) (o : Vec Ideal S1x1024 .f32) (Bv : Vec Ideal S1x1 .f32) (q : Fin 1024) :
    k0_pay2 (F := Ideal) X o Bv (ix2 0 q) = Cert.DistNet.tsigK (Bv (ix2 0 0)) (max (Cert.DistNet.sqXk X q + o (ix2 0 q)) 0) := by
  unfold k0_pay2
  simp only [shapeCast_self]
  show Ideal.logistic (Ideal.div
      (max (matmul dot_S1x16_S1024x16_S1x1024_1_1_0_0_n_n none (broadcast S1x16 (Ideal.ofBits .f32 0x3F800000#32)) (mulf X X)
            (constant (F := Ideal) S1x1024 .f32 0x00000000#32) (ix2 0 q) + o (ix2 0 q)) (Ideal.ofBits .f32 0x00000000#32)
        + broadcastTo S1x1024 (mulf (broadcast S1x1 (Ideal.ofBits .f32 0xC0DD0C53#32)) (spV Bv)) broadcasts_S1x1_S1x1024 (ix2 0 q))
      (broadcastTo S1x1024 (spV Bv) broadcasts_S1x1_S1x1024 (ix2 0 q))) = _
  rw [bcast11_apply, bcast11_apply, matmul_D2_apply, mulf_apply, broadcast_apply, spV_apply, Ideal.ofBits_zero_f32, ofBits_negL]
  simp only [mulf_apply, broadcast_apply, Ideal.ofBits_one_f32]
  rfl

/-! ## The running minimum's update -/

theorem pay1_apply (v30 : FVec Ideal S1x1024 .f32) (v40 : Vec Ideal S1x1024 .f32) (j : S1x1024.Idx) :
    k0_pay1 (F := Ideal) v30 v40 j = min (v40 j) (v30 j) := by
  unfold k0_pay1
  simp only [shapeCast_self]
  rfl

/-! ## The points split into blocks -/

/-- the points split into 25 blocks of 4 sub-tiles of 1000 rows -/
theorem iInf_blocks (f : Fin 100000 → EReal) :
    (⨅ i, f i) = ⨅ t : Fin 25, ⨅ s : Fin 4, ⨅ r : Fin 1000, f ⟨4000 * t.val + 1000 * s.val + r.val, by omega⟩ := by
  apply le_antisymm
  · exact le_iInf fun t => le_iInf fun s => le_iInf fun r => iInf_le f _
  · refine le_iInf fun i => ?_
    have hi := i.isLt
    refine iInf_le_of_le ⟨i.val / 4000, by omega⟩ (iInf_le_of_le ⟨(i.val % 4000) / 1000, by omega⟩
      (iInf_le_of_le ⟨i.val % 1000, by omega⟩ (le_of_eq (congrArg f (Fin.ext ?_)))))
    show 4000 * (i.val / 4000) + 1000 * ((i.val % 4000) / 1000) + i.val % 1000 = i.val
    omega

end Cert.DistNet.Ker

end
-- ==== Proof.KerValue.lean ====
/-
  The kernel's finished block, read at an index, is the kernel's value of the three argument arrays.

  Each grid point sees the whole query array, its own 4000 rows of the codebook and the parameter (one row and one
  column of it, as a reshape wrote it before the region). A block of 4000 rows is four sub-tiles of 1000 rows, so the
  minimum the body takes over a block is the minimum of the augmented contraction `Σ p·(-2x) + Σ p²·1` over the
  block's rows; the running minimum after point `n` is the minimum over the blocks up to `n`; after the last point it
  is the minimum over all 100000 rows, and the last step adds `|x|²`, clips at zero and applies the translated sigmoid.
-/
import proofs.«175195_g1580547974396_cont_7to1_126_26_alg».proof.Proof.KernelIdealBody.Chain
import proofs.«175195_g1580547974396_cont_7to1_126_26_alg».proof.Proof.KerPay
import proofs.«175195_g1580547974396_cont_7to1_126_26_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.DistNet.KerV

open Cert.KernelIdeal Cert.KernelIdeal.Gen Cert.KernelIdeal.Body Idealize.ShloMosaic Idealize.ShloMosaic.TcCoe Idealize.ShloMosaic.ValueIdx

variable (m : (ℓ : Loc nD τ sig) → Buf (Elt Ideal) ℓ)

/-! ## The windows' blocks read at an index -/

/-- The query window's block index is zero on both axes at every point. -/
theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- The codebook window's block index is the point on the row axis and zero on the other. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- The parameter window's block index is zero on both axes at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Every point's query block is the whole query array. -/
theorem blk0_apply (c : Dev nD) (t : Fin cfg0.N) (q : Fin 1024) (d : Fin 16) :
    iblk (F := Ideal) m c 0 t (ix2 q d) = m ((c.tc : Thread nD τ).loc main_arg0) (ix2 q d) := by
  unfold iblk
  show V m c main_arg0 (((cfg0.win 0).blk t).view.emb (ix2 q d)) = _
  rw [V_main_arg0]
  refine congrArg _ ?_
  obtain ⟨e0, e1⟩ := idx0 t
  funext a; apply Fin.ext
  match a with
  | ⟨0, _⟩ => show win0_0.index t (0 : Fin 2) * 1024 + 1 * q.val = q.val; omega
  | ⟨1, _⟩ => show win0_0.index t (1 : Fin 2) * 16 + 1 * d.val = d.val; omega

/-- Row `r` of point `t`'s codebook block is row `4000 t + r` of the codebook. -/
theorem blk1_apply (c : Dev nD) (t : Fin cfg0.N) (r : Fin 4000) (d : Fin 16) (i : Fin 100000)
    (hi : i.val = 4000 * t.val + r.val) :
    iblk (F := Ideal) m c 1 t (ix2 r d) = m ((c.tc : Thread nD τ).loc main_arg1) (ix2 i d) := by
  unfold iblk
  show V m c main_arg1 (((cfg0.win 1).blk t).view.emb (ix2 r d)) = _
  rw [V_main_arg1]
  refine congrArg _ ?_
  obtain ⟨e0, e1⟩ := idx1 t
  funext a; apply Fin.ext
  match a with
  | ⟨0, _⟩ => show win0_1.index t (0 : Fin 2) * 4000 + 1 * r.val = i.val; omega
  | ⟨1, _⟩ => show win0_1.index t (1 : Fin 2) * 16 + 1 * d.val = d.val; omega

/-- Every point's parameter block is the parameter, which a reshape wrote as one row and one column before the region. -/
theorem blk2_apply (c : Dev nD) (t : Fin cfg0.N) :
    iblk (F := Ideal) m c 2 t (ix2 0 0) = m ((c.tc : Thread nD τ).loc main_arg2) (ix1 0) := by
  unfold iblk
  show V m c main_v0 (((cfg0.win 2).blk t).view.emb (ix2 0 0)) = _
  have e : ((cfg0.win 2).blk t).view.emb (ix2 0 0) = ix2 0 0 := by
    obtain ⟨e0, e1⟩ := idx2 t
    funext a; apply Fin.ext
    match a with
    | ⟨0, _⟩ => show win0_2.index t (0 : Fin 2) * 1 + 1 * 0 = 0; omega
    | ⟨1, _⟩ => show win0_2.index t (1 : Fin 2) * 1 + 1 * 0 = 0; omega
  rw [e]
  show StableHlo.after hostOps0 (fun b => m (c, b)) (Proc.devRef .tc main_v0) (ix2 0 0) = _
  after_results
  exact shapeCast_a_1a_apply _ _ 0 0

/-! ## The four sub-tiles of a block -/

theorem sub0_apply (x1 : Vec Ideal S4000x16 .f32) (r : Fin 1000) (d : Fin 16) (r' : Fin 4000)
    (hr : r'.val = 1000 * 0 + r.val) : sub0 x1 (ix2 r d) = x1 (ix2 r' d) := by
  show x1 _ = x1 _
  refine congrArg _ ?_
  funext a; apply Fin.ext
  match a with
  | ⟨0, _⟩ => show 0 + 1 * r.val = r'.val; omega
  | ⟨1, _⟩ => show 0 + 1 * d.val = d.val; omega

theorem sub1_apply (x1 : Vec Ideal S4000x16 .f32) (r : Fin 1000) (d : Fin 16) (r' : Fin 4000)
    (hr : r'.val = 1000 * 1 + r.val) : sub1 x1 (ix2 r d) = x1 (ix2 r' d) := by
  show x1 _ = x1 _
  refine congrArg _ ?_
  funext a; apply Fin.ext
  match a with
  | ⟨0, _⟩ => show 1000 + 1 * r.val = r'.val; omega
  | ⟨1, _⟩ => show 0 + 1 * d.val = d.val; omega

theorem sub2_apply (x1 : Vec Ideal S4000x16 .f32) (r : Fin 1000) (d : Fin 16) (r' : Fin 4000)
    (hr : r'.val = 1000 * 2 + r.val) : sub2 x1 (ix2 r d) = x1 (ix2 r' d) := by
  show x1 _ = x1 _
  refine congrArg _ ?_
  funext a; apply Fin.ext
  match a with
  | ⟨0, _⟩ => show 2000 + 1 * r.val = r'.val; omega
  | ⟨1, _⟩ => show 0 + 1 * d.val = d.val; omega

theorem sub3_apply (x1 : Vec Ideal S4000x16 .f32) (r : Fin 1000) (d : Fin 16) (r' : Fin 4000)
    (hr : r'.val = 1000 * 3 + r.val) : sub3 x1 (ix2 r d) = x1 (ix2 r' d) := by
  show x1 _ = x1 _
  refine congrArg _ ?_
  funext a; apply Fin.ext
  match a with
  | ⟨0, _⟩ => show 3000 + 1 * r.val = r'.val; omega
  | ⟨1, _⟩ => show 0 + 1 * d.val = d.val; omega

/-! ## Minima over blocks -/

/-- The contraction at a row given as a natural number (top past the last row). -/
def cN (X : SX.Idx → EReal) (P : SP.Idx → EReal) (q : Fin 1024) (i : ℕ) : EReal :=
  if h : i < 100000 then cK X P q ⟨i, h⟩ else ⊤

/-- The minimum over block `n`: its four sub-tiles of 1000 rows. -/
def blockInf (X : SX.Idx → EReal) (P : SP.Idx → EReal) (q : Fin 1024) (n : ℕ) : EReal :=
  ⨅ s : Fin 4, ⨅ r : Fin 1000, cN X P q (4000 * n + 1000 * s.val + r.val)

theorem min4_eq_iInf (f : ℕ → EReal) : min (min (min (f 0) (f 1)) (f 2)) (f 3) = ⨅ s : Fin 4, f s.val := by
  apply le_antisymm
  · refine le_iInf fun s => ?_
    match s with
    | ⟨0, _⟩ => exact (min_le_left _ _).trans ((min_le_left _ _).trans (min_le_left _ _))
    | ⟨1, _⟩ => exact (min_le_left _ _).trans ((min_le_left _ _).trans (min_le_right _ _))
    | ⟨2, _⟩ => exact (min_le_left _ _).trans (min_le_right _ _)
    | ⟨3, _⟩ => exact min_le_right _ _
  · exact le_min (le_min (le_min (iInf_le (fun s : Fin 4 => f s.val) 0) (iInf_le (fun s : Fin 4 => f s.val) 1))
      (iInf_le (fun s : Fin 4 => f s.val) 2)) (iInf_le (fun s : Fin 4 => f s.val) 3)

theorem iInf_fin_one (f : ℕ → EReal) : (⨅ t : Fin (0 + 1), f t.val) = f 0 := by
  apply le_antisymm
  · exact iInf_le (fun t : Fin (0 + 1) => f t.val) ⟨0, by omega⟩
  · refine le_iInf fun t => ?_
    have : t.val = 0 := by omega
    rw [this]

theorem iInf_fin_succ_last (n : ℕ) (f : ℕ → EReal) :
    (⨅ t : Fin (n + 1 + 1), f t.val) = min (⨅ t : Fin (n + 1), f t.val) (f (n + 1)) := by
  apply le_antisymm
  · refine le_min (le_iInf fun t => ?_) ?_
    · exact iInf_le (fun t : Fin (n + 1 + 1) => f t.val) ⟨t.val, by omega⟩
    · exact iInf_le (fun t : Fin (n + 1 + 1) => f t.val) ⟨n + 1, by omega⟩
  · refine le_iInf fun t => ?_
    by_cases ht : t.val < n + 1
    · exact (min_le_left _ _).trans (iInf_le (fun t : Fin (n + 1) => f t.val) ⟨t.val, ht⟩)
    · have : t.val = n + 1 := by omega
      rw [this]; exact min_le_right _ _

/-- One sub-tile's minimum over the arrays: the sub-tile `v` holds rows `4000 n + 1000 s + r` of the codebook, `X` the queries. -/
theorem subMin_eq (X : S1024x16.Idx → EReal) (v : S1000x16.Idx → EReal) (A0 : SX.Idx → EReal) (A1 : SP.Idx → EReal)
    (q : Fin 1024) (n s : ℕ) (hn : n < 25) (hs : s < 4)
    (hX : ∀ d : Fin 16, X (ix2 q d) = A0 (ix2 q d))
    (hv : ∀ (r : Fin 1000) (d : Fin 16) (h : 4000 * n + 1000 * s + r.val < 100000),
      v (ix2 r d) = A1 (ix2 ⟨4000 * n + 1000 * s + r.val, h⟩ d)) :
    Ker.subMin X v q = ⨅ r : Fin 1000, cN A0 A1 q (4000 * n + 1000 * s + r.val) := by
  unfold Ker.subMin
  refine iInf_congr fun r => ?_
  have hlt : 4000 * n + 1000 * s + r.val < 100000 := by omega
  unfold cN
  rw [dif_pos hlt]
  unfold cK
  congr 1
  · exact Finset.sum_congr rfl fun d _ => by rw [hv r d hlt, hX d]
  · exact Finset.sum_congr rfl fun d _ => by rw [hv r d hlt]

/-- The minimum the body takes over point `n`'s block is the minimum of the contraction over that block's rows. -/
theorem blockMin_apply (c : Dev nD) (n : ℕ) (h : n < cfg0.N) (q : Fin 1024) :
    blockMin (tile m c) (iblk m c 1 ⟨n, h⟩) (ix2 0 q)
      = blockInf (m ((c.tc : Thread nD τ).loc main_arg0)) (m ((c.tc : Thread nD τ).loc main_arg1)) q n := by
  have hn : n < 25 := lt_of_lt_of_eq h N_0
  have hX : ∀ d : Fin 16, iblk (F := Ideal) m c 0 ⟨0, N_pos⟩ (ix2 q d)
      = m ((c.tc : Thread nD τ).loc main_arg0) (ix2 q d) := fun d => blk0_apply m c ⟨0, N_pos⟩ q d
  unfold blockMin tile
  refine (Ker.pay4_apply (iblk m c 0 ⟨0, N_pos⟩) (sub0 (iblk m c 1 ⟨n, h⟩)) (sub1 (iblk m c 1 ⟨n, h⟩))
    (sub2 (iblk m c 1 ⟨n, h⟩)) (sub3 (iblk m c 1 ⟨n, h⟩)) q).trans ?_
  rw [subMin_eq _ _ (m ((c.tc : Thread nD τ).loc main_arg0)) (m ((c.tc : Thread nD τ).loc main_arg1)) q n 0 hn (by omega) hX
      (fun r d hlt => (sub0_apply _ r d ⟨1000 * 0 + r.val, by omega⟩ rfl).trans
        (blk1_apply m c ⟨n, h⟩ _ d ⟨4000 * n + 1000 * 0 + r.val, hlt⟩ (by show 4000 * n + 1000 * 0 + r.val = 4000 * n + (1000 * 0 + r.val); omega))),
    subMin_eq _ _ (m ((c.tc : Thread nD τ).loc main_arg0)) (m ((c.tc : Thread nD τ).loc main_arg1)) q n 1 hn (by omega) hX
      (fun r d hlt => (sub1_apply _ r d ⟨1000 * 1 + r.val, by omega⟩ rfl).trans
        (blk1_apply m c ⟨n, h⟩ _ d ⟨4000 * n + 1000 * 1 + r.val, hlt⟩ (by show 4000 * n + 1000 * 1 + r.val = 4000 * n + (1000 * 1 + r.val); omega))),
    subMin_eq _ _ (m ((c.tc : Thread nD τ).loc main_arg0)) (m ((c.tc : Thread nD τ).loc main_arg1)) q n 2 hn (by omega) hX
      (fun r d hlt => (sub2_apply _ r d ⟨1000 * 2 + r.val, by omega⟩ rfl).trans
        (blk1_apply m c ⟨n, h⟩ _ d ⟨4000 * n + 1000 * 2 + r.val, hlt⟩ (by show 4000 * n + 1000 * 2 + r.val = 4000 * n + (1000 * 2 + r.val); omega))),
    subMin_eq _ _ (m ((c.tc : Thread nD τ).loc main_arg0)) (m ((c.tc : Thread nD τ).loc main_arg1)) q n 3 hn (by omega) hX
      (fun r d hlt => (sub3_apply _ r d ⟨1000 * 3 + r.val, by omega⟩ rfl).trans
        (blk1_apply m c ⟨n, h⟩ _ d ⟨4000 * n + 1000 * 3 + r.val, hlt⟩ (by show 4000 * n + 1000 * 3 + r.val = 4000 * n + (1000 * 3 + r.val); omega)))]
  exact min4_eq_iInf (fun s => ⨅ r : Fin 1000,
    cN (m ((c.tc : Thread nD τ).loc main_arg0)) (m ((c.tc : Thread nD τ).loc main_arg1)) q (4000 * n + 1000 * s + r.val))

/-- The running minimum after point `n` is the minimum over the blocks up to `n`. -/
theorem runMin_apply (c : Dev nD) (q : Fin 1024) (n : ℕ) (h : n < cfg0.N) :
    runMin m c n h (ix2 0 q)
      = ⨅ t : Fin (n + 1), blockInf (m ((c.tc : Thread nD τ).loc main_arg0)) (m ((c.tc : Thread nD τ).loc main_arg1)) q t.val := by
  induction n with
  | zero =>
    refine Eq.trans ?_ (iInf_fin_one (fun t => blockInf (m ((c.tc : Thread nD τ).loc main_arg0)) (m ((c.tc : Thread nD τ).loc main_arg1)) q t)).symm
    exact blockMin_apply m c 0 h q
  | succ n ih =>
    refine Eq.trans ?_ (iInf_fin_succ_last n (fun t => blockInf (m ((c.tc : Thread nD τ).loc main_arg0)) (m ((c.tc : Thread nD τ).loc main_arg1)) q t)).symm
    show k0_pay1 (blockMin (tile m c) (iblk m c 1 ⟨n + 1, h⟩)) (runMin m c n (Nat.lt_of_succ_lt h)) (ix2 0 q) = _
    refine (Ker.pay1_apply _ _ _).trans ?_
    rw [ih (Nat.lt_of_succ_lt h), blockMin_apply m c (n + 1) h q]

/-- The blocks' minima together are the minimum over all the rows. -/
theorem iInf_all (A0 : SX.Idx → EReal) (A1 : SP.Idx → EReal) (q : Fin 1024) :
    (⨅ t : Fin (24 + 1), blockInf A0 A1 q t.val) = ⨅ i : Fin 100000, cK A0 A1 q i := by
  rw [Ker.iInf_blocks (fun i => cK A0 A1 q i)]
  show (⨅ t : Fin 25, blockInf A0 A1 q t.val) = _
  unfold blockInf cN
  refine iInf_congr fun t => iInf_congr fun s => iInf_congr fun r => dif_pos (by omega)

theorem sqXk_congr (X : S1024x16.Idx → EReal) (A0 : SX.Idx → EReal) (q : Fin 1024)
    (hX : ∀ d : Fin 16, X (ix2 q d) = A0 (ix2 q d)) : sqXk X q = sqXk A0 q := by
  unfold sqXk
  exact Finset.sum_congr rfl fun d _ => by rw [hX d]

/-- THE FINISHED BLOCK read at an index is the kernel's value of the three argument arrays. -/
theorem finished_apply (c : Dev nD) (q : Fin 1024) :
    finished (F := Ideal) m c (ix2 0 q)
      = Cert.DistNet.Gker (m ((c.tc : Thread nD τ).loc main_arg0)) (m ((c.tc : Thread nD τ).loc main_arg1))
          (m ((c.tc : Thread nD τ).loc main_arg2)) (ix1 q) := by
  unfold finished
  refine (Ker.pay2_apply (iblk m c 0 ⟨24, N_last⟩) (runMin m c 24 N_last) (iblk m c 2 ⟨24, N_last⟩) q).trans ?_
  rw [blk2_apply m c ⟨24, N_last⟩, runMin_apply m c q 24 N_last, iInf_all,
    sqXk_congr _ (m ((c.tc : Thread nD τ).loc main_arg0)) q (fun d => blk0_apply m c ⟨24, N_last⟩ q d)]
  rfl

end Cert.DistNet.KerV
end
-- ==== Proof.RefValue.lean ====
/-
  The reference's run read back: its result is `Gref` of the argument arrays.

  Index by index. The softplus of the parameter: the guard `x ≠ x` is never taken on the extended reals,
  so the select keeps `max β 0 + log1p (exp (-|β - 0|))`, and `β - 0 = β`, `|x| = max x (-x)`. The squared
  distance at `(q, i)`: the two row sums of squares (each a sum over the sixteen coordinates from zero) broadcast
  along the other axis, minus twice the contraction `∑ d, x_q,d · p_i,d` (the transposed codebook read at the
  swapped index), clipped below by zero. The minimum over the codebook axis from `+∞` is the infimum over the
  points. The last five operations spell `1 / (1 + exp (-y))`, which is the logistic function of `y`.
-/
import proofs.«175195_g1580547974396_cont_7to1_126_26_alg».proof.Proof.Gen.ReferenceIdeal.Run
import proofs.«175195_g1580547974396_cont_7to1_126_26_alg».proof.Proof.Gen.ReferenceIdeal.Read
import proofs.«175195_g1580547974396_cont_7to1_126_26_alg».proof.Proof.Spec
import Idealize.ShloMosaic.PureOps.Reduce
import Idealize.ShloMosaic.PureOps.Ideal.Laws
import Idealize.ShloMosaic.Lib.IdealHost
import Idealize.ShloMosaic.Lib.ValueIdx
import Mathlib.Order.CompleteLattice.Finset
import Mathlib.Data.Finset.Fold

noncomputable section

namespace Cert.DistNet.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Words -/

/-- The word `0x40000000` is two. -/
private theorem two_word : Ideal.ofBits .f32 0x40000000#32 = 2 := by
  rw [show (2 : EReal) = ((2 : ℝ) : EReal) by norm_cast]
  simp [Ideal.ofBits, Ideal.ieee, -EReal.coe_mul]; norm_num

/-- The word `0x7F800000` is `+∞`. -/
private theorem top_word : Ideal.ofBits .f32 0x7F800000#32 = ⊤ := by
  simp [Ideal.ofBits, Ideal.ieee]

/-! ## A fold of `min` from `+∞` over a whole finite type is the infimum -/

theorem fold_min_top {ι : Type} [Fintype ι] (f : ι → EReal) :
    (Finset.univ : Finset ι).fold min ⊤ f = ⨅ k, f k := by
  apply le_antisymm
  · refine le_iInf fun k => ?_
    exact (Finset.fold_min_le _).2 (Or.inr ⟨k, Finset.mem_univ k, le_rfl⟩)
  · exact (Finset.le_fold_min _).2 ⟨le_top, fun k _ => iInf_le f k⟩

/-! ## The softplus of the parameter -/

/-- On the extended reals nothing differs from itself: the guard of the select is the bit `0`. -/
theorem une_self (a : EReal) : FloatOps.cmpf (F := Ideal) (φ := .f32) .une a a = 0#1 := by
  show Ideal.cmp .une a a = 0#1
  simp [Ideal.cmp]

theorem absf_ideal (a : EReal) : FloatOps.absf (F := Ideal) (φ := .f32) a = max a (-a) := rfl

theorem softplus_read (B : FVec Ideal S1 .f32) (i : S1.Idx) :
    val_main_v17 (F := Ideal) B i = softplus (B (ix1 0)) := by
  have hi : i = ix1 (0 : Fin 1) := (eq_ix1 i).trans (congrArg ix1 (Subsingleton.elim (α := Fin 1) _ _))
  subst hi
  rw [val_main_v17_apply, val_main_call1_v4_apply, une_self, select_zero, val_main_call1_v11_apply,
    val_main_call1_v1_apply, val_main_call1_v0_apply, val_main_call1_cst_apply, val_main_call1_v10_apply,
    val_main_call1_v9_apply, val_main_call1_v8_apply, val_main_call1_v7_apply, val_main_call1_v3_apply,
    val_main_call1_v2_apply, val_main_call1_cst_apply]
  simp only [Ideal.ofBits_def, Ideal.ofBits_zero_f32, Ideal.hostAbsf_def, Ideal.hostNegf_def, Ideal.hostUnary_exp_def,
    Ideal.hostUnary_log1p_def, Ideal.addf_def, Ideal.subf_def, Ideal.maximumf_def, Ideal.negf_def, absf_ideal, sub_zero]
  rfl

/-! ## The clipped squared distance at an index -/

theorem idx_sqX (q : Fin 1024) (i : Fin 100000) (k : Fin 16) :
    idx_main_v1 (idx_main_v2 (idx_main_v11 (ix2 q i))) k = ix2 q k := by
  funext a; match a with | ⟨0, _⟩ => rfl | ⟨1, _⟩ => rfl

theorem idx_sqP (q : Fin 1024) (i : Fin 100000) (k : Fin 16) :
    idx_main_v4 (idx_main_v5 (idx_main_v6 (idx_main_v12 (ix2 q i)))) k = ix2 i k := by
  funext a; match a with | ⟨0, _⟩ => rfl | ⟨1, _⟩ => rfl

theorem idx_dotX (q : Fin 1024) (i : Fin 100000) (k : Fin 16) :
    lidx_main_v8 (ix2 q i) k = ix2 q k := by
  funext a; match a with | ⟨0, _⟩ => rfl | ⟨1, _⟩ => rfl

theorem idx_dotP (q : Fin 1024) (i : Fin 100000) (k : Fin 16) :
    idx_main_v7 (ridx_main_v8 (ix2 q i) k) = ix2 i k := by
  funext a; match a with | ⟨0, _⟩ => rfl | ⟨1, _⟩ => rfl

theorem dist_read (X : FVec Ideal S1024x16 .f32) (P : FVec Ideal S100000x16 .f32) (q : Fin 1024) (i : Fin 100000) :
    val_main_v15 (F := Ideal) X P (ix2 q i) = d2 X P q i := by
  rw [val_main_v15_apply, val_main_call0_v1_apply, val_main_call0_v0_apply, val_main_cst_2_apply,
    val_main_v14_apply, val_main_v13_apply, val_main_v11_apply, val_main_v2_apply, val_main_v1_apply,
    val_main_v12_apply, val_main_v6_apply, val_main_v5_apply, val_main_v4_apply, val_main_v10_apply,
    val_main_v9_apply, val_main_cst_1_apply, val_main_v8_apply]
  simp only [val_main_v0_apply, val_main_v3_apply, val_main_v7_apply, val_main_cst_apply, val_main_cst_0_apply,
    idx_sqX, idx_sqP, idx_dotX, idx_dotP, Ideal.ofBits_def, Ideal.ofBits_zero_f32, two_word, Ideal.addf_def,
    Ideal.subf_def, Ideal.mulf_def, Ideal.maximumf_def, zero_add]
  rfl

/-! ## The minimum over the codebook axis -/

theorem red : S1024x100000.Reduces [1] S1024 := by decide

theorem lift_eq (j : S1024.Idx) (k : Fin 100000) : red.lift j k = ix2 (n0 := 1024) (n1 := 100000) (j 0) k := by
  funext c; apply Fin.ext
  match c with
  | ⟨0, _⟩ => rfl
  | ⟨1, _⟩ => rfl

theorem min_read (X : FVec Ideal S1024x16 .f32) (P : FVec Ideal S100000x16 .f32) (j : S1024.Idx) :
    val_main_v16 (F := Ideal) X P j = ⨅ i : Fin 100000, d2 X P (j 0) i := by
  unfold val_main_v16
  rw [Host.reduce_eq_fold_single (FloatOps.minimumf (F := Ideal) (φ := .f32)) (val_main_v15 (F := Ideal) X P)
    (val_main_cst_3 (F := Ideal)) reducesTo_S1024x100000_S1024_d1 red h_S_ j, val_main_cst_3_apply, Ideal.ofBits_def, top_word]
  refine (fold_min_top (ι := Fin 100000) (fun k => val_main_v15 (F := Ideal) X P (red.lift j k))).trans ?_
  refine iInf_congr fun k => ?_
  exact (congrArg (val_main_v15 (F := Ideal) X P) (lift_eq j k)).trans (dist_read X P (j 0) k)

/-! ## The whole result -/

theorem ref_value (X : FVec Ideal S1024x16 .f32) (P : FVec Ideal S100000x16 .f32) (B : FVec Ideal S1 .f32) :
    Host.divf (broadcastInDim S1024 ![] bcast_S_S1024 (constant (F := Ideal) S_ .f32 0x3F800000#32)) (addf (broadcastInDim S1024 ![] bcast_S_S1024 (constant (F := Ideal) S_ .f32 0x3F800000#32)) (Host.exp (Host.negf (Host.divf (addf (Host.reduce FloatOps.minimumf (maximumf (broadcastInDim S1024x100000 ![] bcast_S_S1024x100000 (id (constant (F := Ideal) S_ .f32 0x00000000#32))) (subf (addf (broadcastInDim S1024x100000 ![0, 1] bcast_S1024x1_S1024x100000_0_1 (broadcastInDim S1024x1 ![0] bcast_S1024_S1024x1_0 (Host.reduceAdd (mulf X X) (constant (F := Ideal) S_ .f32 0x00000000#32) reducesTo_S1024x16_S1024_d1 h_S_))) (broadcastInDim S1024x100000 ![0, 1] bcast_S1x100000_S1024x100000_0_1 (transpose S1x100000 [1, 0] (broadcastInDim S100000x1 ![0] bcast_S100000_S100000x1_0 (Host.reduceAdd (mulf P P) (constant (F := Ideal) S_ .f32 0x00000000#32) reducesTo_S100000x16_S100000_d1 h_S_)) transposes_S100000x1_S1x100000_1_0))) (mulf (broadcastInDim S1024x100000 ![] bcast_S_S1024x100000 (constant (F := Ideal) S_ .f32 0x40000000#32)) (Host.dotGeneral dot_S1024x16_S16x100000_S1024x100000_1_0_0_1_n_n none X (transpose S16x100000 [1, 0] P transposes_S100000x16_S16x100000_1_0))))) (constant (F := Ideal) S_ .f32 0x7F800000#32) reducesTo_S1024x100000_S1024_d1 h_S_) (broadcastInDim S1024 ![0] bcast_S1_S1024_0 (mulf (Host.negf (select (cmpf .une (subf B (broadcastInDim S1 ![] bcast_S_S1 (constant (F := Ideal) S_ .f32 0x00000000#32))) (subf B (broadcastInDim S1 ![] bcast_S_S1 (constant (F := Ideal) S_ .f32 0x00000000#32)))) (addf B (broadcastInDim S1 ![] bcast_S_S1 (constant (F := Ideal) S_ .f32 0x00000000#32))) (addf (maximumf B (broadcastInDim S1 ![] bcast_S_S1 (constant (F := Ideal) S_ .f32 0x00000000#32))) (Host.log1p (Host.exp (Host.negf (Host.absf (subf B (broadcastInDim S1 ![] bcast_S_S1 (constant (F := Ideal) S_ .f32 0x00000000#32)))))))))) (broadcastInDim S1 ![] bcast_S_S1 (constant (F := Ideal) S_ .f32 0x40DD0C53#32))))) (broadcastInDim S1024 ![0] bcast_S1_S1024_0 (select (cmpf .une (subf B (broadcastInDim S1 ![] bcast_S_S1 (constant (F := Ideal) S_ .f32 0x00000000#32))) (subf B (broadcastInDim S1 ![] bcast_S_S1 (constant (F := Ideal) S_ .f32 0x00000000#32)))) (addf B (broadcastInDim S1 ![] bcast_S_S1 (constant (F := Ideal) S_ .f32 0x00000000#32))) (addf (maximumf B (broadcastInDim S1 ![] bcast_S_S1 (constant (F := Ideal) S_ .f32 0x00000000#32))) (Host.log1p (Host.exp (Host.negf (Host.absf (subf B (broadcastInDim S1 ![] bcast_S_S1 (constant (F := Ideal) S_ .f32 0x00000000#32))))))))))))))
      = Cert.DistNet.Gref X P B := by
  rw [val_main_v30_eq]
  funext j
  rw [val_main_v30_apply, val_main_v29_apply, val_main_cst_6_apply, val_main_v28_apply, val_main_v27_apply,
    val_main_cst_5_apply, val_main_v26_apply, val_main_v25_apply, val_main_v24_apply, val_main_v22_apply,
    val_main_v21_apply, val_main_v20_apply, val_main_v18_apply, val_main_v19_apply, val_main_cst_4_apply,
    val_main_v23_apply, softplus_read, min_read]
  simp only [Ideal.ofBits_def, Ideal.ofBits_one_f32, Ideal.hostDivf_def, Ideal.hostNegf_def, Ideal.hostUnary_exp_def,
    Ideal.addf_def, Ideal.mulf_def, Ideal.negf_def]
  rfl

end Cert.DistNet.Ref

end
-- ==== Proof.Finite.lean ====
/-
  From the precondition to finiteness: the predicate
  all(|X| < +inf) and all(|P| < +inf) and all(|B| < +inf), stated equal to the true word,
  says that every entry of the three arrays is a real number.
-/
import proofs.«175195_g1580547974396_cont_7to1_126_26_alg».proof.Defs
import Idealize.ShloMosaic.Lib.ReduceAll
import Idealize.ShloMosaic.Lib.ValueIdx
import Idealize.ShloMosaic.PureOps.Ideal

noncomputable section

namespace Cert.DistNet

open Idealize.ShloMosaic Idealize.ShloMosaic.ValueIdx

/-- The rank-0 shape has one index. -/
instance : Subsingleton Cert.Pre_finite_inputs.S_.Idx := ⟨fun a b => funext fun d => d.elim0⟩

/-- The f32 word `0x7F800000` denotes `+inf`. -/
theorem ofBits_inf : Ideal.ofBits .f32 0x7F800000#32 = (⊤ : EReal) := by
  simp [Ideal.ofBits, Ideal.ieee]

/-- An extended real whose absolute value `max x (-x)` is below `+inf` is a real. -/
theorem real_of_abs_lt_top (x : EReal) (h : max x (-x) < ⊤) : ∃ r : ℝ, x = (r : EReal) := by
  rw [max_lt_iff] at h
  induction x using EReal.rec with
  | bot => exact absurd h.2 (by simp)
  | coe r => exact ⟨r, rfl⟩
  | top => exact absurd h.1 (by simp)

/-- One element of the comparison `|x| < +inf` being the true word says `x` is a real. -/
theorem real_of_cmp (x : EReal)
    (h : Ideal.cmp .olt (max x (-x)) (Ideal.ofBits .f32 0x7F800000#32) = 1#1) : ∃ r : ℝ, x = (r : EReal) := by
  rw [ofBits_inf] at h
  apply real_of_abs_lt_top
  by_contra hn
  simp [Ideal.cmp, hn] at h

section
variable [Cert.Pre_finite_inputs.Facts]

theorem finite_of_pre
    (X : FVec Ideal ⟨2, ![1024, 16]⟩ .f32) (P : FVec Ideal ⟨2, ![100000, 16]⟩ .f32) (B : FVec Ideal ⟨1, ![1]⟩ .f32)
    (h : Cert.Pre_finite_inputs.fn (F := Ideal) X P B = fun _ => 1#1) :
    (∀ i, ∃ r : ℝ, X i = (r : EReal)) ∧ (∀ i, ∃ r : ℝ, P i = (r : EReal)) ∧ (∀ i, ∃ r : ℝ, B i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact real_of_cmp (X i) (Host.reduce_andi_all _ _ _ _ _ h1 i)
  · exact real_of_cmp (P i) (Host.reduce_andi_all _ _ _ _ _ h2 i)
  · exact real_of_cmp (B i) (Host.reduce_andi_all _ _ _ _ _ h3 i)

end

end Cert.DistNet

end
-- ==== Proof.lean ====
/-
  The certificate: a fused distance-to-codebook kernel against its reference, over the extended reals.

  The reference computes, for each of 1024 queries, the minimum over 100000 codebook points of the squared distance
  |x|² + |p|² - 2 x·p clipped below at zero, and passes it through a translated sigmoid σ((d - L·b)/b), b = softplus β.
  The kernel walks the points in 25 blocks; per block it forms the augmented contraction Σ p·(-2x) + Σ p²·1 against
  a query tile it builds once, keeps a running minimum, and only after the last block adds |x|², clips at zero and
  applies the sigmoid. The two agree because |x|² does not depend on the point and t ↦ max(|x|² + t, 0) is monotone:
  the clip and the shift commute with the minimum. That step is real arithmetic (it needs every input entry finite,
  which the precondition gives); the sigmoid's (-L)·b against (-b)·L holds on all extended reals.

  The pieces: each program's frame (the two kernels' over the body's three cases by grid position, the reference's
  from its run); the kernel's value read off its frame run as a chain over the grid points (KernelIdealBody/Value),
  read at an index as `Gker` (KerValue over KerPay); the reference's run read as `Gref` (RefValue); the law
  `Gker = Gref` under finiteness (Law), finiteness from the precondition (Finite).
-/
import proofs.«175195_g1580547974396_cont_7to1_126_26_alg».proof.Defs
import proofs.«175195_g1580547974396_cont_7to1_126_26_alg».proof.Proof.Gen.Kernel
import proofs.«175195_g1580547974396_cont_7to1_126_26_alg».proof.Proof.Gen.KernelIdeal
import proofs.«175195_g1580547974396_cont_7to1_126_26_alg».proof.Proof.Gen.ReferenceIdeal
import proofs.«175195_g1580547974396_cont_7to1_126_26_alg».proof.Proof.Gen.Pre_finite_inputs
import proofs.«175195_g1580547974396_cont_7to1_126_26_alg».proof.Proof.KernelBody.Frame
import proofs.«175195_g1580547974396_cont_7to1_126_26_alg».proof.Proof.KernelIdealBody.Value
import proofs.«175195_g1580547974396_cont_7to1_126_26_alg».proof.Proof.KerValue
import proofs.«175195_g1580547974396_cont_7to1_126_26_alg».proof.Proof.RefValue
import proofs.«175195_g1580547974396_cont_7to1_126_26_alg».proof.Proof.Law
import proofs.«175195_g1580547974396_cont_7to1_126_26_alg».proof.Proof.Finite
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ => Cert.Kernel.Body.frame m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result buffer, under the precondition, is the reference's function of the arguments. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    shapeCast Cert.KernelIdeal.S1024 (Cert.KernelIdeal.Body.finished (F := Ideal) m c) Cert.KernelIdeal.Facts₀.shapeCasts_S1x1024_S1024
      = Cert.DistNet.Gref (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  obtain ⟨hX, hP, -⟩ := Cert.DistNet.finite_of_pre _ _ _ (hpre c)
  rw [← Cert.DistNet.Gker_eq_Gref _ _ _ hX hP]
  funext j
  obtain ⟨q, rfl⟩ : ∃ q : Fin 1024, j = ix1 q := ⟨j 0, eq_ix1 j⟩
  exact (shapeCast_1a_a_apply _ _ q).trans (Cert.DistNet.KerV.finished_apply m c q)

/-- Both idealized programs run; their results are one function of arguments that agree. -/
theorem algebraic : Cert.algebraic_KernelIdeal_ReferenceIdeal := by
  intro m ρ m' ρ' hpre hagree
  refine ⟨fun c => Cert.DistNet.Gref (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)), ?_, ?_⟩
  · refine (θ_run Cert.KernelIdeal.defs _ _).mono (fun _ h c => ⟨(h c).1.trans ?_, (h c).2⟩) (Cert.KernelIdeal.Body.run (F := Ideal) m ρ)
    rw [kernel_value m hpre c]
    dsimp only
    rw [(hagree c).1, (hagree c).2.1, (hagree c).2.2]
  · exact (θ_run Cert.ReferenceIdeal.defs _ _).mono (fun _ h c => ⟨(h c).1.trans (Cert.DistNet.Ref.ref_value _ _ _), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
